-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x512 : Shape := ⟨3, ![64, 2048, 512]⟩
abbrev S64x1536 : Shape := ⟨2, ![64, 1536]⟩
abbrev S64x512 : Shape := ⟨2, ![64, 512]⟩
abbrev S_ : Shape := ⟨0, ![]⟩

class Facts : Prop where
  bcast_S_S64x2048x512 : S_.BroadcastsInDim S64x2048x512 (![] : Fin 0 → Fin S64x2048x512.rank)
  reducesTo_S64x2048x512_S_d0_1_2 : S64x2048x512.ReducesTo [0, 1, 2] S_
  h_S_ : 0 < S_.numel
  bcast_S_S64x1536 : S_.BroadcastsInDim S64x1536 (![] : Fin 0 → Fin S64x1536.rank)
  reducesTo_S64x1536_S_d0_1 : S64x1536.ReducesTo [0, 1] S_
  bcast_S_S64x512 : S_.BroadcastsInDim S64x512 (![] : Fin 0 → Fin S64x512.rank)
  reducesTo_S64x512_S_d0_1 : S64x512.ReducesTo [0, 1] S_

variable [Facts]

def fn_part1 {F : FTy → Type} [FloatOps F] (main_arg3 : IVec S64x512 32) (main_v15 : IVec S_ 1) (main_c_5 : IVec S_ 32) : IVec S_ 1 :=
  let main_v16 : IVec S64x512 32 := broadcastInDim S64x512 ![] bcast_S_S64x512 main_c_5
  let main_v17 : IVec S64x512 1 := cmpi .sge main_arg3 main_v16
  let main_c_6 : IVec S_ 32 := constantI S_ 32 2048#32
  let main_v18 : IVec S64x512 32 := broadcastInDim S64x512 ![] bcast_S_S64x512 main_c_6
  let main_v19 : IVec S64x512 1 := cmpi .slt main_arg3 main_v18
  let main_v20 : IVec S64x512 1 := andi main_v17 main_v19
  let main_c_7 : IVec S_ 1 := constantI S_ 1 1#1
  let main_v21 : IVec S_ 1 := (fun x v => Host.reduce IntOp.andi x v reducesTo_S64x512_S_d0_1 h_S_) main_v20 main_c_7
  let main_v22 : IVec S_ 1 := andi main_v15 main_v21
  main_v22

def fn {F : FTy → Type} [FloatOps F] (main_arg0 : FVec F S64x2048x512 .f32) (main_arg1 : FVec F S64x2048x512 .f32) (main_arg2 : IVec S64x1536 32) (main_arg3 : IVec S64x512 32) : IVec S_ 1 :=
  let main_v0 : FVec F S64x2048x512 .f32 := Host.absf main_arg0
  let main_cst : FVec F S_ .f32 := constant S_ .f32 0x7F800000#32
  let main_v1 : FVec F S64x2048x512 .f32 := broadcastInDim S64x2048x512 ![] bcast_S_S64x2048x512 main_cst
  let main_v2 : IVec S64x2048x512 1 := cmpf .olt main_v0 main_v1
  let main_c : IVec S_ 1 := constantI S_ 1 1#1
  let main_v3 : IVec S_ 1 := (fun x v => Host.reduce IntOp.andi x v reducesTo_S64x2048x512_S_d0_1_2 h_S_) main_v2 main_c
  let main_v4 : FVec F S64x2048x512 .f32 := Host.absf main_arg1
  let main_cst_0 : FVec F S_ .f32 := constant S_ .f32 0x7F800000#32
  let main_v5 : FVec F S64x2048x512 .f32 := broadcastInDim S64x2048x512 ![] bcast_S_S64x2048x512 main_cst_0
  let main_v6 : IVec S64x2048x512 1 := cmpf .olt main_v4 main_v5
  let main_c_1 : IVec S_ 1 := constantI S_ 1 1#1
  let main_v7 : IVec S_ 1 := (fun x v => Host.reduce IntOp.andi x v reducesTo_S64x2048x512_S_d0_1_2 h_S_) main_v6 main_c_1
  let main_v8 : IVec S_ 1 := andi main_v3 main_v7
  let main_c_2 : IVec S_ 32 := constantI S_ 32 0#32
  let main_v9 : IVec S64x1536 32 := broadcastInDim S64x1536 ![] bcast_S_S64x1536 main_c_2
  let main_v10 : IVec S64x1536 1 := cmpi .sge main_arg2 main_v9
  let main_c_3 : IVec S_ 32 := constantI S_ 32 2048#32
  let main_v11 : IVec S64x1536 32 := broadcastInDim S64x1536 ![] bcast_S_S64x1536 main_c_3
  let main_v12 : IVec S64x1536 1 := cmpi .slt main_arg2 main_v11
  let main_v13 : IVec S64x1536 1 := andi main_v10 main_v12
  let main_c_4 : IVec S_ 1 := constantI S_ 1 1#1
  let main_v14 : IVec S_ 1 := (fun x v => Host.reduce IntOp.andi x v reducesTo_S64x1536_S_d0_1 h_S_) main_v13 main_c_4
  let main_v15 : IVec S_ 1 := andi main_v8 main_v14
  let main_c_5 : IVec S_ 32 := constantI S_ 32 0#32
  fn_part1 (F := F) main_arg3 main_v15 main_c_5
-- ==== Kernel.lean ====
abbrev S64x2048x512 : Shape := ⟨3, ![64, 2048, 512]⟩
abbrev S64x1536 : Shape := ⟨2, ![64, 1536]⟩
abbrev S64x512 : Shape := ⟨2, ![64, 512]⟩
abbrev S2048 : Shape := ⟨1, ![2048]⟩
abbrev S1x1x2048 : Shape := ⟨3, ![1, 1, 2048]⟩
abbrev S64x1536x1 : Shape := ⟨3, ![64, 1536, 1]⟩
abbrev S64x1536x2048 : Shape := ⟨3, ![64, 1536, 2048]⟩
abbrev S_ : Shape := ⟨0, ![]⟩
abbrev S64x2048 : Shape := ⟨2, ![64, 2048]⟩
abbrev S64x512x1 : Shape := ⟨3, ![64, 512, 1]⟩
abbrev S64x512x2048 : Shape := ⟨3, ![64, 512, 2048]⟩
abbrev S64x1 : Shape := ⟨2, ![64, 1]⟩
abbrev S8x512x512 : Shape := ⟨3, ![8, 512, 512]⟩
abbrev S8x512 : Shape := ⟨2, ![8, 512]⟩
abbrev S8x1 : Shape := ⟨2, ![8, 1]⟩
abbrev S8x128x512 : Shape := ⟨3, ![8, 128, 512]⟩
abbrev S8x128 : Shape := ⟨2, ![8, 128]⟩
abbrev S8 : Shape := ⟨1, ![8]⟩

abbrev nBuf : Space → Nat
  | .hbm => 35
  | .vmem => 8
  | .smem => 0
  | _ => 0

abbrev bufTy : (tb : Table) → Fin (tcTables nBuf tb) → BufTy
  | .hbm, ⟨0, _⟩ => ⟨S64x2048x512, .f32⟩
  | .hbm, ⟨1, _⟩ => ⟨S64x2048x512, .f32⟩
  | .hbm, ⟨2, _⟩ => ⟨S64x1536, .i32⟩
  | .hbm, ⟨3, _⟩ => ⟨S64x512, .i32⟩
  | .hbm, ⟨4, _⟩ => ⟨S2048, .i32⟩
  | .hbm, ⟨5, _⟩ => ⟨S1x1x2048, .i32⟩
  | .hbm, ⟨6, _⟩ => ⟨S64x1536x1, .i32⟩
  | .hbm, ⟨7, _⟩ => ⟨S64x1536x2048, .i32⟩
  | .hbm, ⟨8, _⟩ => ⟨S64x1536x2048, .i32⟩
  | .hbm, ⟨9, _⟩ => ⟨S64x1536x2048, .i1⟩
  | .hbm, ⟨10, _⟩ => ⟨S64x1536x2048, .f32⟩
  | .hbm, ⟨11, _⟩ => ⟨S_, .f32⟩
  | .hbm, ⟨12, _⟩ => ⟨S64x2048, .f32⟩
  | .hbm, ⟨13, _⟩ => ⟨S64x512x1, .i32⟩
  | .hbm, ⟨14, _⟩ => ⟨S64x512x2048, .i32⟩
  | .hbm, ⟨15, _⟩ => ⟨S64x512x2048, .i32⟩
  | .hbm, ⟨16, _⟩ => ⟨S64x512x2048, .i1⟩
  | .hbm, ⟨17, _⟩ => ⟨S64x512x2048, .f32⟩
  | .hbm, ⟨18, _⟩ => ⟨S_, .f32⟩
  | .hbm, ⟨19, _⟩ => ⟨S64x2048, .f32⟩
  | .hbm, ⟨20, _⟩ => ⟨S_, .f32⟩
  | .hbm, ⟨21, _⟩ => ⟨S64x2048, .f32⟩
  | .hbm, ⟨22, _⟩ => ⟨S64x2048, .f32⟩
  | .hbm, ⟨23, _⟩ => ⟨S_, .f32⟩
  | .hbm, ⟨24, _⟩ => ⟨S64x2048, .f32⟩
  | .hbm, ⟨25, _⟩ => ⟨S64x2048, .f32⟩
  | .hbm, ⟨26, _⟩ => ⟨S_, .f32⟩
  | .hbm, ⟨27, _⟩ => ⟨S64x2048, .f32⟩
  | .hbm, ⟨28, _⟩ => ⟨S64x2048, .f32⟩
  | .hbm, ⟨29, _⟩ => ⟨S64x2048, .f32⟩
  | .hbm, ⟨30, _⟩ => ⟨S64x1, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .local _ .vmem, ⟨0, _⟩ => ⟨S8x512x512, .f32⟩
  | .local _ .vmem, ⟨1, _⟩ => ⟨S8x512x512, .f32⟩
  | .local _ .vmem, ⟨2, _⟩ => ⟨S8x512x512, .f32⟩
  | .local _ .vmem, ⟨3, _⟩ => ⟨S8x512x512, .f32⟩
  | .local _ .vmem, ⟨4, _⟩ => ⟨S8x512, .f32⟩
  | .local _ .vmem, ⟨5, _⟩ => ⟨S8x512, .f32⟩
  | .local _ .vmem, ⟨6, _⟩ => ⟨S8x1, .f32⟩
  | .local _ .vmem, ⟨7, _⟩ => ⟨S8x1, .f32⟩
  | _, _ => ⟨S64x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_mult1 : BitVec 32 :=
  let c0_i32_1 : BitVec 32 := 0#32
  let c128_i32 : BitVec 32 := 128#32
  let v4 : BitVec 32 := Scalar.muli c0_i32_1 c128_i32
  v4
def k0_off1 (c0_i32_1 : BitVec 32) : Fin 3 → Nat :=
  let c0 : Index := 0#32
  let c128_i32 : BitVec 32 := 128#32
  let v4 : BitVec 32 := Scalar.muli c0_i32_1 c128_i32
  let v5 : BitVec 32 := v4
  let v6 : Index := Scalar.indexCast v5
  let c0_2 : Index := 0#32
  ![0, v6.toNat, 0]
def k0_off2 (c0_i32_1 : BitVec 32) : Fin 2 → Nat :=
  let c0_5 : Index := 0#32
  let c128_i32 : BitVec 32 := 128#32
  let v4 : BitVec 32 := Scalar.muli c0_i32_1 c128_i32
  let v5 : BitVec 32 := v4
  let v10 : Index := Scalar.indexCast v5
  ![0, v10.toNat]
def k0_mult2 : BitVec 32 :=
  let c1_i32 : BitVec 32 := 1#32
  let c128_i32_8 : BitVec 32 := 128#32
  let v20 : BitVec 32 := Scalar.muli c1_i32 c128_i32_8
  v20
def k0_mult3 : BitVec 32 :=
  let c2_i32 : BitVec 32 := 2#32
  let c128_i32_16 : BitVec 32 := 128#32
  let v36 : BitVec 32 := Scalar.muli c2_i32 c128_i32_16
  v36
def k0_mult4 : BitVec 32 :=
  let c3_i32 : BitVec 32 := 3#32
  let c128_i32_24 : BitVec 32 := 128#32
  let v52 : BitVec 32 := Scalar.muli c3_i32 c128_i32_24
  v52
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S2048_S1x1x2048_2 : S2048.BroadcastsInDim S1x1x2048 (![2] : Fin 1 → Fin S1x1x2048.rank)
  bcast_S64x1536_S64x1536x1_0_1 : S64x1536.BroadcastsInDim S64x1536x1 (![0, 1] : Fin 2 → Fin S64x1536x1.rank)
  bcast_S64x1536x1_S64x1536x2048_0_1_2 : S64x1536x1.BroadcastsInDim S64x1536x2048 (![0, 1, 2] : Fin 3 → Fin S64x1536x2048.rank)
  bcast_S1x1x2048_S64x1536x2048_0_1_2 : S1x1x2048.BroadcastsInDim S64x1536x2048 (![0, 1, 2] : Fin 3 → Fin S64x1536x2048.rank)
  reducesTo_S64x1536x2048_S64x2048_d1 : S64x1536x2048.ReducesTo [1] S64x2048
  h_S_ : 0 < S_.numel
  bcast_S64x512_S64x512x1_0_1 : S64x512.BroadcastsInDim S64x512x1 (![0, 1] : Fin 2 → Fin S64x512x1.rank)
  bcast_S64x512x1_S64x512x2048_0_1_2 : S64x512x1.BroadcastsInDim S64x512x2048 (![0, 1, 2] : Fin 3 → Fin S64x512x2048.rank)
  bcast_S1x1x2048_S64x512x2048_0_1_2 : S1x1x2048.BroadcastsInDim S64x512x2048 (![0, 1, 2] : Fin 3 → Fin S64x512x2048.rank)
  reducesTo_S64x512x2048_S64x2048_d1 : S64x512x2048.ReducesTo [1] S64x2048
  bcast_S_S64x2048 : S_.BroadcastsInDim S64x2048 (![] : Fin 0 → Fin S64x2048.rank)
  inb_S8x1_S8x1_0_0 : ∀ a, (![0, 0] : Fin 2 → Nat) a + S8x1.size a ≤ S8x1.size a
  h_S8x1 : 0 < S8x1.numel
  h_S8x128x512 : 0 < S8x128x512.numel
  h_S8x128 : 0 < S8x128.numel
  shapeCasts_S8x128_S8x128 : S8x128.ShapeCasts S8x128
  reduces_S8x128x512_S8x128 : S8x128x512.Reduces [2] S8x128
  reduces_S8x128_S8 : S8x128.Reduces [1] S8
  shapeCasts_S8_S8x1 : S8.ShapeCasts S8x1
  shapeCasts_S8x1_S8x1 : S8x1.ShapeCasts S8x1
  reducesTo_S64x1_S_d0_1 : S64x1.ReducesTo [0, 1] S_
  hrank0 : 0 < grid0.rank
  k0_mult1_dvd : 128 ∣ k0_mult1.toNat
  k0_off1_inb : ∀ (r : Fin 4), ∀ a, (k0_off1 (BitVec.ofNat 32 r.val)) a + S8x128x512.size a ≤ S8x512x512.size a
  k0_off2_inb : ∀ (r : Fin 4), ∀ a, (k0_off2 (BitVec.ofNat 32 r.val)) a + S8x128.size a ≤ S8x512.size a
  k0_mult2_dvd : 128 ∣ k0_mult2.toNat
  k0_mult3_dvd : 128 ∣ k0_mult3.toNat
  k0_mult4_dvd : 128 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x512.size a ≤ S64x2048x512.size a
  hwx0_0 : ∀ i : grid0.Coords, EltTy.bits .f32 = 32 ∨ (Rect.block (s := S64x2048x512) S8x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512x512.size a ≤ S64x2048x512.size a
  hwx0_1 : ∀ i : grid0.Coords, EltTy.bits .f32 = 32 ∨ (Rect.block (s := S64x2048x512) S8x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S64x2048.size a
  hwx0_2 : ∀ i : grid0.Coords, EltTy.bits .f32 = 32 ∨ (Rect.block (s := S64x2048) S8x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1.size a ≤ S64x1.size a
  hwx0_3 : ∀ i : grid0.Coords, EltTy.bits .f32 = 32 ∨ (Rect.block (s := S64x1) S8x1.size (cc0_transform_3 i) (hinb0_3 i)).WholeWords (EltTy.packing .f32)

variable [Facts₀]

abbrev win0_0 : Pipeline.Window sig grid0 :=
  Pipeline.Window.ofSpec (Memref.whole main_arg0) S8x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S8x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S8x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x2048x512 : Shape := ⟨3, ![64, 2048, 512]⟩
abbrev S64x1536 : Shape := ⟨2, ![64, 1536]⟩
abbrev S64x512 : Shape := ⟨2, ![64, 512]⟩
abbrev S64x1536x1 : Shape := ⟨3, ![64, 1536, 1]⟩
abbrev S_ : Shape := ⟨0, ![]⟩
abbrev S1 : Shape := ⟨1, ![1]⟩
abbrev S1x1x1 : Shape := ⟨3, ![1, 1, 1]⟩
abbrev S64x1536x512 : Shape := ⟨3, ![64, 1536, 512]⟩
abbrev S64 : Shape := ⟨1, ![64]⟩
abbrev S64x512x1 : Shape := ⟨3, ![64, 512, 1]⟩
abbrev S64x512x512 : Shape := ⟨3, ![64, 512, 512]⟩

abbrev nBuf : Space → Nat
  | .hbm => 121
  | .vmem => 0
  | .smem => 0
  | _ => 0

abbrev bufTy : (tb : Table) → Fin (tcTables nBuf tb) → BufTy
  | .hbm, ⟨0, _⟩ => ⟨S64x2048x512, .f32⟩
  | .hbm, ⟨1, _⟩ => ⟨S64x2048x512, .f32⟩
  | .hbm, ⟨2, _⟩ => ⟨S64x1536, .i32⟩
  | .hbm, ⟨3, _⟩ => ⟨S64x512, .i32⟩
  | .hbm, ⟨4, _⟩ => ⟨S64x1536x1, .i32⟩
  | .hbm, ⟨5, _⟩ => ⟨S_, .i32⟩
  | .hbm, ⟨6, _⟩ => ⟨S64x1536x1, .i32⟩
  | .hbm, ⟨7, _⟩ => ⟨S64x1536x1, .i1⟩
  | .hbm, ⟨8, _⟩ => ⟨S_, .i32⟩
  | .hbm, ⟨9, _⟩ => ⟨S64x1536x1, .i32⟩
  | .hbm, ⟨10, _⟩ => ⟨S64x1536x1, .i32⟩
  | .hbm, ⟨11, _⟩ => ⟨S64x1536x1, .i32⟩
  | .hbm, ⟨12, _⟩ => ⟨S1, .i32⟩
  | .hbm, ⟨13, _⟩ => ⟨S_, .i32⟩
  | .hbm, ⟨14, _⟩ => ⟨S64x1536x1, .i32⟩
  | .hbm, ⟨15, _⟩ => ⟨S64x1536x1, .i1⟩
  | .hbm, ⟨16, _⟩ => ⟨S1x1x1, .i32⟩
  | .hbm, ⟨17, _⟩ => ⟨S64x1536x1, .i32⟩
  | .hbm, ⟨18, _⟩ => ⟨S64x1536x1, .i1⟩
  | .hbm, ⟨19, _⟩ => ⟨S64x1536x1, .i1⟩
  | .hbm, ⟨20, _⟩ => ⟨S_, .i1⟩
  | .hbm, ⟨21, _⟩ => ⟨S64x1536, .i1⟩
  | .hbm, ⟨22, _⟩ => ⟨S64x1536x512, .f32⟩
  | .hbm, ⟨23, _⟩ => ⟨S64x1536x512, .i1⟩
  | .hbm, ⟨24, _⟩ => ⟨S_, .f32⟩
  | .hbm, ⟨25, _⟩ => ⟨S64x1536x512, .f32⟩
  | .hbm, ⟨26, _⟩ => ⟨S64x1536x512, .f32⟩
  | .hbm, ⟨27, _⟩ => ⟨S64x1536x1, .i32⟩
  | .hbm, ⟨28, _⟩ => ⟨S_, .i32⟩
  | .hbm, ⟨29, _⟩ => ⟨S64x1536x1, .i32⟩
  | .hbm, ⟨30, _⟩ => ⟨S64x1536x1, .i1⟩
  | .hbm, ⟨31, _⟩ => ⟨S_, .i32⟩
  | .hbm, ⟨32, _⟩ => ⟨S64x1536x1, .i32⟩
  | .hbm, ⟨33, _⟩ => ⟨S64x1536x1, .i32⟩
  | .hbm, ⟨34, _⟩ => ⟨S64x1536x1, .i32⟩
  | .hbm, ⟨35, _⟩ => ⟨S1, .i32⟩
  | .hbm, ⟨36, _⟩ => ⟨S_, .i32⟩
  | .hbm, ⟨37, _⟩ => ⟨S64x1536x1, .i32⟩
  | .hbm, ⟨38, _⟩ => ⟨S64x1536x1, .i1⟩
  | .hbm, ⟨39, _⟩ => ⟨S1x1x1, .i32⟩
  | .hbm, ⟨40, _⟩ => ⟨S64x1536x1, .i32⟩
  | .hbm, ⟨41, _⟩ => ⟨S64x1536x1, .i1⟩
  | .hbm, ⟨42, _⟩ => ⟨S64x1536x1, .i1⟩
  | .hbm, ⟨43, _⟩ => ⟨S_, .i1⟩
  | .hbm, ⟨44, _⟩ => ⟨S64x1536, .i1⟩
  | .hbm, ⟨45, _⟩ => ⟨S64x1536x512, .f32⟩
  | .hbm, ⟨46, _⟩ => ⟨S64x1536x512, .i1⟩
  | .hbm, ⟨47, _⟩ => ⟨S_, .f32⟩
  | .hbm, ⟨48, _⟩ => ⟨S64x1536x512, .f32⟩
  | .hbm, ⟨49, _⟩ => ⟨S64x1536x512, .f32⟩
  | .hbm, ⟨50, _⟩ => ⟨S64x1536x512, .f32⟩
  | .hbm, ⟨51, _⟩ => ⟨S64x1536x512, .f32⟩
  | .hbm, ⟨52, _⟩ => ⟨S_, .f32⟩
  | .hbm, ⟨53, _⟩ => ⟨S64, .f32⟩
  | .hbm, ⟨54, _⟩ => ⟨S_, .f32⟩
  | .hbm, ⟨55, _⟩ => ⟨S64, .f32⟩
  | .hbm, ⟨56, _⟩ => ⟨S64, .f32⟩
  | .hbm, ⟨57, _⟩ => ⟨S64x512x1, .i32⟩
  | .hbm, ⟨58, _⟩ => ⟨S_, .i32⟩
  | .hbm, ⟨59, _⟩ => ⟨S64x512x1, .i32⟩
  | .hbm, ⟨60, _⟩ => ⟨S64x512x1, .i1⟩
  | .hbm, ⟨61, _⟩ => ⟨S_, .i32⟩
  | .hbm, ⟨62, _⟩ => ⟨S64x512x1, .i32⟩
  | .hbm, ⟨63, _⟩ => ⟨S64x512x1, .i32⟩
  | .hbm, ⟨64, _⟩ => ⟨S64x512x1, .i32⟩
  | .hbm, ⟨65, _⟩ => ⟨S1, .i32⟩
  | .hbm, ⟨66, _⟩ => ⟨S_, .i32⟩
  | .hbm, ⟨67, _⟩ => ⟨S64x512x1, .i32⟩
  | .hbm, ⟨68, _⟩ => ⟨S64x512x1, .i1⟩
  | .hbm, ⟨69, _⟩ => ⟨S1x1x1, .i32⟩
  | .hbm, ⟨70, _⟩ => ⟨S64x512x1, .i32⟩
  | .hbm, ⟨71, _⟩ => ⟨S64x512x1, .i1⟩
  | .hbm, ⟨72, _⟩ => ⟨S64x512x1, .i1⟩
  | .hbm, ⟨73, _⟩ => ⟨S_, .i1⟩
  | .hbm, ⟨74, _⟩ => ⟨S64x512, .i1⟩
  | .hbm, ⟨75, _⟩ => ⟨S64x512x512, .f32⟩
  | .hbm, ⟨76, _⟩ => ⟨S64x512x512, .i1⟩
  | .hbm, ⟨77, _⟩ => ⟨S_, .f32⟩
  | .hbm, ⟨78, _⟩ => ⟨S64x512x512, .f32⟩
  | .hbm, ⟨79, _⟩ => ⟨S64x512x512, .f32⟩
  | .hbm, ⟨80, _⟩ => ⟨S64x512x1, .i32⟩
  | .hbm, ⟨81, _⟩ => ⟨S_, .i32⟩
  | .hbm, ⟨82, _⟩ => ⟨S64x512x1, .i32⟩
  | .hbm, ⟨83, _⟩ => ⟨S64x512x1, .i1⟩
  | .hbm, ⟨84, _⟩ => ⟨S_, .i32⟩
  | .hbm, ⟨85, _⟩ => ⟨S64x512x1, .i32⟩
  | .hbm, ⟨86, _⟩ => ⟨S64x512x1, .i32⟩
  | .hbm, ⟨87, _⟩ => ⟨S64x512x1, .i32⟩
  | .hbm, ⟨88, _⟩ => ⟨S1, .i32⟩
  | .hbm, ⟨89, _⟩ => ⟨S_, .i32⟩
  | .hbm, ⟨90, _⟩ => ⟨S64x512x1, .i32⟩
  | .hbm, ⟨91, _⟩ => ⟨S64x512x1, .i1⟩
  | .hbm, ⟨92, _⟩ => ⟨S1x1x1, .i32⟩
  | .hbm, ⟨93, _⟩ => ⟨S64x512x1, .i32⟩
  | .hbm, ⟨94, _⟩ => ⟨S64x512x1, .i1⟩
  | .hbm, ⟨95, _⟩ => ⟨S64x512x1, .i1⟩
  | .hbm, ⟨96, _⟩ => ⟨S_, .i1⟩
  | .hbm, ⟨97, _⟩ => ⟨S64x512, .i1⟩
  | .hbm, ⟨98, _⟩ => ⟨S64x512x512, .f32⟩
  | .hbm, ⟨99, _⟩ => ⟨S64x512x512, .i1⟩
  | .hbm, ⟨100, _⟩ => ⟨S_, .f32⟩
  | .hbm, ⟨101, _⟩ => ⟨S64x512x512, .f32⟩
  | .hbm, ⟨102, _⟩ => ⟨S64x512x512, .f32⟩
  | .hbm, ⟨103, _⟩ => ⟨S64x512x512, .f32⟩
  | .hbm, ⟨104, _⟩ => ⟨S64x512x512, .f32⟩
  | .hbm, ⟨105, _⟩ => ⟨S_, .f32⟩
  | .hbm, ⟨106, _⟩ => ⟨S64, .f32⟩
  | .hbm, ⟨107, _⟩ => ⟨S_, .f32⟩
  | .hbm, ⟨108, _⟩ => ⟨S64, .f32⟩
  | .hbm, ⟨109, _⟩ => ⟨S64, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | _, _ => ⟨S64x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_c_2 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_c_3 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_cst : Ref sig .tc := ⟨.hbm, 24, rfl⟩
abbrev main_call0_v14 : Ref sig .tc := ⟨.hbm, 25, rfl⟩
abbrev main_v1 : Ref sig .tc := ⟨.hbm, 26, rfl⟩
abbrev main_v2 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_c_1 : Ref sig .tc := ⟨.hbm, 35, rfl⟩
abbrev main_call1_c_2 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_c_3 : Ref sig .tc := ⟨.hbm, 43, rfl⟩
abbrev main_call1_v11 : Ref sig .tc := ⟨.hbm, 44, rfl⟩
abbrev main_call1_v12 : Ref sig .tc := ⟨.hbm, 45, rfl⟩
abbrev main_call1_v13 : Ref sig .tc := ⟨.hbm, 46, rfl⟩
abbrev main_call1_cst : Ref sig .tc := ⟨.hbm, 47, rfl⟩
abbrev main_call1_v14 : Ref sig .tc := ⟨.hbm, 48, rfl⟩
abbrev main_v3 : Ref sig .tc := ⟨.hbm, 49, rfl⟩
abbrev main_v4 : Ref sig .tc := ⟨.hbm, 50, rfl⟩
abbrev main_v5 : Ref sig .tc := ⟨.hbm, 51, rfl⟩
abbrev main_cst : Ref sig .tc := ⟨.hbm, 52, rfl⟩
abbrev main_v6 : Ref sig .tc := ⟨.hbm, 53, rfl⟩
abbrev main_cst_0 : Ref sig .tc := ⟨.hbm, 54, rfl⟩
abbrev main_v7 : Ref sig .tc := ⟨.hbm, 55, rfl⟩
abbrev main_v8 : Ref sig .tc := ⟨.hbm, 56, rfl⟩
abbrev main_v9 : Ref sig .tc := ⟨.hbm, 57, rfl⟩
abbrev main_call2_c : Ref sig .tc := ⟨.hbm, 58, rfl⟩
abbrev main_call2_v0 : Ref sig .tc := ⟨.hbm, 59, rfl⟩
abbrev main_call2_v1 : Ref sig .tc := ⟨.hbm, 60, rfl⟩
abbrev main_call2_c_0 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_c_1 : Ref sig .tc := ⟨.hbm, 65, rfl⟩
abbrev main_call2_c_2 : Ref sig .tc := ⟨.hbm, 66, rfl⟩
abbrev main_call2_v5 : Ref sig .tc := ⟨.hbm, 67, rfl⟩
abbrev main_call2_v6 : Ref sig .tc := ⟨.hbm, 68, rfl⟩
abbrev main_call2_v7 : Ref sig .tc := ⟨.hbm, 69, rfl⟩
abbrev main_call2_v8 : Ref sig .tc := ⟨.hbm, 70, rfl⟩
abbrev main_call2_v9 : Ref sig .tc := ⟨.hbm, 71, rfl⟩
abbrev main_call2_v10 : Ref sig .tc := ⟨.hbm, 72, rfl⟩
abbrev main_call2_c_3 : Ref sig .tc := ⟨.hbm, 73, rfl⟩
abbrev main_call2_v11 : Ref sig .tc := ⟨.hbm, 74, rfl⟩
abbrev main_call2_v12 : Ref sig .tc := ⟨.hbm, 75, rfl⟩
abbrev main_call2_v13 : Ref sig .tc := ⟨.hbm, 76, rfl⟩
abbrev main_call2_cst : Ref sig .tc := ⟨.hbm, 77, rfl⟩
abbrev main_call2_v14 : Ref sig .tc := ⟨.hbm, 78, rfl⟩
abbrev main_v10 : Ref sig .tc := ⟨.hbm, 79, rfl⟩
abbrev main_v11 : Ref sig .tc := ⟨.hbm, 80, rfl⟩
abbrev main_call3_c : Ref sig .tc := ⟨.hbm, 81, rfl⟩
abbrev main_call3_v0 : Ref sig .tc := ⟨.hbm, 82, rfl⟩
abbrev main_call3_v1 : Ref sig .tc := ⟨.hbm, 83, rfl⟩
abbrev main_call3_c_0 : Ref sig .tc := ⟨.hbm, 84, rfl⟩
abbrev main_call3_v2 : Ref sig .tc := ⟨.hbm, 85, rfl⟩
abbrev main_call3_v3 : Ref sig .tc := ⟨.hbm, 86, rfl⟩
abbrev main_call3_v4 : Ref sig .tc := ⟨.hbm, 87, rfl⟩
abbrev main_call3_c_1 : Ref sig .tc := ⟨.hbm, 88, rfl⟩
abbrev main_call3_c_2 : Ref sig .tc := ⟨.hbm, 89, rfl⟩
abbrev main_call3_v5 : Ref sig .tc := ⟨.hbm, 90, rfl⟩
abbrev main_call3_v6 : Ref sig .tc := ⟨.hbm, 91, rfl⟩
abbrev main_call3_v7 : Ref sig .tc := ⟨.hbm, 92, rfl⟩
abbrev main_call3_v8 : Ref sig .tc := ⟨.hbm, 93, rfl⟩
abbrev main_call3_v9 : Ref sig .tc := ⟨.hbm, 94, rfl⟩
abbrev main_call3_v10 : Ref sig .tc := ⟨.hbm, 95, rfl⟩
abbrev main_call3_c_3 : Ref sig .tc := ⟨.hbm, 96, rfl⟩
abbrev main_call3_v11 : Ref sig .tc := ⟨.hbm, 97, rfl⟩
abbrev main_call3_v12 : Ref sig .tc := ⟨.hbm, 98, rfl⟩
abbrev main_call3_v13 : Ref sig .tc := ⟨.hbm, 99, rfl⟩
abbrev main_call3_cst : Ref sig .tc := ⟨.hbm, 100, rfl⟩
abbrev main_call3_v14 : Ref sig .tc := ⟨.hbm, 101, rfl⟩
abbrev main_v12 : Ref sig .tc := ⟨.hbm, 102, rfl⟩
abbrev main_v13 : Ref sig .tc := ⟨.hbm, 103, rfl⟩
abbrev main_v14 : Ref sig .tc := ⟨.hbm, 104, rfl⟩
abbrev main_cst_1 : Ref sig .tc := ⟨.hbm, 105, rfl⟩
abbrev main_v15 : Ref sig .tc := ⟨.hbm, 106, rfl⟩
abbrev main_cst_2 : Ref sig .tc := ⟨.hbm, 107, rfl⟩
abbrev main_v16 : Ref sig .tc := ⟨.hbm, 108, rfl⟩
abbrev main_v17 : Ref sig .tc := ⟨.hbm, 109, rfl⟩
abbrev main_cst_3 : Ref sig .tc := ⟨.hbm, 110, rfl⟩
abbrev main_v18 : Ref sig .tc := ⟨.hbm, 111, rfl⟩
abbrev main_cst_4 : Ref sig .tc := ⟨.hbm, 112, rfl⟩
abbrev main_v19 : Ref sig .tc := ⟨.hbm, 113, rfl⟩
abbrev main_cst_5 : Ref sig .tc := ⟨.hbm, 114, rfl⟩
abbrev main_v20 : Ref sig .tc := ⟨.hbm, 115, rfl⟩
abbrev main_cst_6 : Ref sig .tc := ⟨.hbm, 116, rfl⟩
abbrev main_v21 : Ref sig .tc := ⟨.hbm, 117, rfl⟩
abbrev main_cst_7 : Ref sig .tc := ⟨.hbm, 118, rfl⟩
abbrev main_v22 : Ref sig .tc := ⟨.hbm, 119, rfl⟩
abbrev main_v23 : Ref sig .tc := ⟨.hbm, 120, rfl⟩

abbrev nD : Nat := 1
abbrev τ : Topo := Topo.v7x

variable {F : FTy → Type} [FloatOps F]

class Facts₀ : Prop where
  bcast_S64x1536_S64x1536x1_0_1 : S64x1536.BroadcastsInDim S64x1536x1 (![0, 1] : Fin 2 → Fin S64x1536x1.rank)
  bcast_S_S64x1536x1 : S_.BroadcastsInDim S64x1536x1 (![] : Fin 0 → Fin S64x1536x1.rank)
  bcast_S1_S1x1x1_2 : S1.BroadcastsInDim S1x1x1 (![2] : Fin 1 → Fin S1x1x1.rank)
  bcast_S1x1x1_S64x1536x1_0_1_2 : S1x1x1.BroadcastsInDim S64x1536x1 (![0, 1, 2] : Fin 3 → Fin S64x1536x1.rank)
  reducesTo_S64x1536x1_S64x1536_d2 : S64x1536x1.ReducesTo [2] S64x1536
  h_S_ : 0 < S_.numel
  bcast_S64x1536_S64x1536x512_0_1 : S64x1536.BroadcastsInDim S64x1536x512 (![0, 1] : Fin 2 → Fin S64x1536x512.rank)
  bcast_S_S64x1536x512 : S_.BroadcastsInDim S64x1536x512 (![] : Fin 0 → Fin S64x1536x512.rank)
  reducesTo_S64x1536x512_S64_d1_2 : S64x1536x512.ReducesTo [1, 2] S64
  bcast_S_S64 : S_.BroadcastsInDim S64 (![] : Fin 0 → Fin S64.rank)
  bcast_S64x512_S64x512x1_0_1 : S64x512.BroadcastsInDim S64x512x1 (![0, 1] : Fin 2 → Fin S64x512x1.rank)
  bcast_S_S64x512x1 : S_.BroadcastsInDim S64x512x1 (![] : Fin 0 → Fin S64x512x1.rank)
  bcast_S1x1x1_S64x512x1_0_1_2 : S1x1x1.BroadcastsInDim S64x512x1 (![0, 1, 2] : Fin 3 → Fin S64x512x1.rank)
  reducesTo_S64x512x1_S64x512_d2 : S64x512x1.ReducesTo [2] S64x512
  bcast_S64x512_S64x512x512_0_1 : S64x512.BroadcastsInDim S64x512x512 (![0, 1] : Fin 2 → Fin S64x512x512.rank)
  bcast_S_S64x512x512 : S_.BroadcastsInDim S64x512x512 (![] : Fin 0 → Fin S64x512x512.rank)
  reducesTo_S64x512x512_S64_d1_2 : S64x512x512.ReducesTo [1, 2] S64
  reducesTo_S64_S_d0 : S64.ReducesTo [0] S_
  gather_S64x2048x512_S64x1536x1_S64x1536x512_2_1_0_0_1_2_11512_wf : GatherDims.WF S64x2048x512 S64x1536x1 S64x1536x512 [2] [1] [0] [1] [0] 2 ![1, 1, 512]
  gather_S64x2048x512_S64x512x1_S64x512x512_2_1_0_0_1_2_11512_wf : GatherDims.WF S64x2048x512 S64x512x1 S64x512x512 [2] [1] [0] [1] [0] 2 ![1, 1, 512]

variable [Facts₀]

def gather_S64x2048x512_S64x1536x1_S64x1536x512_2_1_0_0_1_2_11512 : GatherDims S64x2048x512 S64x1536x1 S64x1536x512 where
  offsetDims := [2]
  collapsedSliceDims := [1]
  operandBatchingDims := [0]
  startIndicesBatchingDims := [0]
  startIndexMap := [1]
  indexVectorDim := 2
  sliceSizes := ![1, 1, 512]
  wf := gather_S64x2048x512_S64x1536x1_S64x1536x512_2_1_0_0_1_2_11512_wf
def gather_S64x2048x512_S64x512x1_S64x512x512_2_1_0_0_1_2_11512 : GatherDims S64x2048x512 S64x512x1 S64x512x512 where
  offsetDims := [2]
  collapsedSliceDims := [1]
  operandBatchingDims := [0]
  startIndicesBatchingDims := [0]
  startIndexMap := [1]
  indexVectorDim := 2
  sliceSizes := ![1, 1, 512]
  wf := gather_S64x2048x512_S64x512x1_S64x512x512_2_1_0_0_1_2_11512_wf

class Facts : Prop extends Facts₀ where

variable [Facts]
-- ==== Proof.Consts.lean ====
/-
  The float literals the two programs spell, as the extended reals their bit patterns denote when floats are
  read as exact numbers: the three divisors 1536·512 = 786432, 512·512 = 262144 and the batch size 64 are the
  integers themselves; the unmasked term's scale, written 0.1 in the sources, is the binary fraction
  13421773 / 2^27 that the f32 pattern encodes (both programs carry the same pattern, so its exact value never
  matters beyond being a real number); the all-ones-exponent pattern is +∞. Every other module reads its
  constants here.
-/
import Idealize.ShloMosaic.PureOps.Ideal

noncomputable section

namespace Cert.Consts

open Idealize.ShloMosaic

/-- `786432.0` = 1536 · 512, the number of gathered entries per sample on the masked side. -/
theorem ofBits_786432 : Ideal.ofBits .f32 0x49400000#32 = ((786432 : ℝ) : EReal) := by
  simp [Ideal.ofBits, Ideal.ieee, -EReal.coe_mul]; norm_num

/-- `262144.0` = 512 · 512, the number of gathered entries per sample on the unmasked side. -/
theorem ofBits_262144 : Ideal.ofBits .f32 0x48800000#32 = ((262144 : ℝ) : EReal) := by
  simp [Ideal.ofBits, Ideal.ieee, -EReal.coe_mul]; norm_num

/-- `64.0`, the batch size. -/
theorem ofBits_64 : Ideal.ofBits .f32 0x42800000#32 = ((64 : ℝ) : EReal) := by
  simp [Ideal.ofBits, Ideal.ieee, -EReal.coe_mul]; norm_num

/-- The scale of the unmasked term as a real number: the value of the f32 pattern nearest to one tenth. -/
def alpha : ℝ := 13421773 / 134217728

/-- The pattern both programs write for `0.1` denotes `alpha`. -/
theorem ofBits_alpha : Ideal.ofBits .f32 0x3DCCCCCD#32 = ((alpha : ℝ) : EReal) := by
  simp [Ideal.ofBits, Ideal.ieee, alpha, -EReal.coe_mul]; norm_num

/-- `+0.0` denotes zero. -/
theorem ofBits_zero : Ideal.ofBits .f32 0x00000000#32 = 0 := by
  simp [Ideal.ofBits, Ideal.ieee]

/-- The pattern with all exponent bits set and a zero fraction denotes +∞. -/
theorem ofBits_inf : Ideal.ofBits .f32 0x7F800000#32 = ⊤ := by
  simp [Ideal.ofBits, Ideal.ieee]

end Cert.Consts

end
-- ==== Proof.PreFacts.lean ====
/-
  What the precondition says about the four argument arrays: every entry of the two float arrays is a real
  number, and every entry of the two index lists is a patch number 0 ≤ · < 2048.

  The precondition is one truth value: the conjunction of four "for all entries" tests. A conjunction that
  holds gives each conjunct; a "for all" that holds gives the test at every entry. At an entry of a float
  array the test is |x| < +∞, which rules out both infinities, so x is the real number x.toReal. At an entry of
  an index list the test is 0 ≤ w and w < 2048 with w read as a signed number; a nonnegative signed word reads
  the same unsigned, so w is the unsigned word of the natural number w.toNat < 2048.
-/
import proofs.«417517_j35751307772082_2_alg».proof.Pre_finite_inputs
import proofs.«417517_j35751307772082_2_alg».proof.Proof.Consts
import Idealize.ShloMosaic.PureOps.Ideal
import Idealize.ShloMosaic.Lib.ValueIdx
import Idealize.ShloMosaic.Lib.ReduceAll
import Idealize.ShloMosaic.Lib.StableHlo.Predicate

noncomputable section

namespace Cert.PreFacts

open Idealize.ShloMosaic Idealize.ShloMosaic.ValueIdx

variable [Cert.Pre_finite_inputs.Facts]

/-- The rank-0 shape has exactly one index. -/
instance : Subsingleton Cert.Pre_finite_inputs.S_.Idx := ⟨fun _ _ => funext fun d => d.elim0⟩

/-- An extended real whose absolute value max x (−x) is below +∞ is neither infinity, hence a real number. -/
theorem real_of_abs_lt_top (x : EReal) (h : max x (-x) < ⊤) : x = ((x.toReal : ℝ) : EReal) := by
  have h1 : x ≠ ⊤ := by rintro rfl; simp at h
  have h2 : x ≠ ⊥ := by rintro rfl; simp at h
  exact (EReal.coe_toReal h1 h2).symm

/-- A 32-bit word that tests 0 ≤ · < 2048 as a signed number is the unsigned word of a number below 2048. -/
theorem word_in_range (w : BitVec 32) (h0 : IntOp.cmpi .sge w 0#32 = 1#1) (h1 : IntOp.cmpi .slt w 2048#32 = 1#1) :
    w.toNat < 2048 ∧ w = BitVec.ofNat 32 w.toNat := by
  rw [IntOp.cmpi_sge, show (0#32 : BitVec 32).toInt = 0 from by decide, BitVec.toInt_pos_iff] at h0
  rw [IntOp.cmpi_slt, BitVec.toInt_eq_toNat_of_lt h0, show (2048#32 : BitVec 32).toInt = 2048 from by decide] at h1
  refine ⟨by omega, ?_⟩
  apply BitVec.eq_of_toNat_eq
  rw [BitVec.toNat_ofNat]
  omega

/-- One entry of the float test: |x i| compared below the broadcast +∞ pattern says x i is a real number. -/
theorem real_of_elem {s : Shape}
    (hb : Cert.Pre_finite_inputs.S_.BroadcastsInDim s (![] : Fin 0 → Fin s.rank))
    (x : FVec Ideal s .f32) (i : s.Idx)
    (h : cmpf .olt (Host.absf x)
      (broadcastInDim s ![] hb (constant (F := Ideal) Cert.Pre_finite_inputs.S_ .f32 0x7F800000#32)) i = 1#1) :
    x i = (((x i).toReal : ℝ) : EReal) := by
  apply real_of_abs_lt_top
  have h' : Ideal.cmp .olt (max (x i) (-(x i))) (Ideal.ofBits .f32 0x7F800000#32) = 1#1 := h
  rw [Cert.Consts.ofBits_inf] at h'
  have h'' : BitVec.ofBool (decide (max (x i) (-(x i)) < ⊤)) = 1#1 := h'
  exact of_decide_eq_true ((StableHlo.Predicate.ofBool_eq_one_iff _).1 h'')

/-- One entry of the index test: 0 ≤ x i and x i < 2048 against the broadcast constants, read signed. -/
theorem word_of_elem {s : Shape}
    (hb : Cert.Pre_finite_inputs.S_.BroadcastsInDim s (![] : Fin 0 → Fin s.rank))
    (x : IVec s 32) (i : s.Idx)
    (h : andi (cmpi .sge x (broadcastInDim s ![] hb (constantI Cert.Pre_finite_inputs.S_ 32 0#32)))
      (cmpi .slt x (broadcastInDim s ![] hb (constantI Cert.Pre_finite_inputs.S_ 32 2048#32))) i = 1#1) :
    (x i).toNat < 2048 ∧ x i = BitVec.ofNat 32 (x i).toNat := by
  have h' : IntOp.andi (IntOp.cmpi .sge (x i) 0#32) (IntOp.cmpi .slt (x i) 2048#32) = 1#1 := h
  obtain ⟨a, b⟩ := IntOp.andi_eq_one.1 h'
  exact word_in_range _ a b

/-- Under the precondition the float arrays are real-valued and the index lists name patches in range. -/
theorem real_and_in_range
    (x0 x1 : FVec Ideal Cert.Pre_finite_inputs.S64x2048x512 .f32)
    (x2 : IVec Cert.Pre_finite_inputs.S64x1536 32) (x3 : IVec Cert.Pre_finite_inputs.S64x512 32)
    (h : Cert.Pre_finite_inputs.fn (F := Ideal) x0 x1 x2 x3 = fun _ => 1#1) :
    ∃ (A B : Fin 64 → Fin 2048 → Fin 512 → ℝ) (mi : Fin 64 → Fin 1536 → Fin 2048) (ui : Fin 64 → Fin 512 → Fin 2048),
      (∀ (p : Fin 64) (s : Fin 2048) (d : Fin 512), x0 (ix3 p s d) = ((A p s d : ℝ) : EReal))
      ∧ (∀ (p : Fin 64) (s : Fin 2048) (d : Fin 512), x1 (ix3 p s d) = ((B p s d : ℝ) : EReal))
      ∧ (∀ (p : Fin 64) (i : Fin 1536), x2 (ix2 p i) = BitVec.ofNat 32 (mi p i).val)
      ∧ (∀ (p : Fin 64) (i : Fin 512), x3 (ix2 p i) = BitVec.ofNat 32 (ui p i).val) := by
  -- the precondition's one truth value, as the printed chain of operations
  have e := congrFun h ValueIdx.ix0
  dsimp only [Cert.Pre_finite_inputs.fn, Cert.Pre_finite_inputs.fn_part1] at e
  -- a conjunction of four "for all entries" tests
  obtain ⟨e012, e3⟩ := IntOp.andi_eq_one.1 e
  obtain ⟨e01, e2⟩ := IntOp.andi_eq_one.1 e012
  obtain ⟨e0, e1⟩ := IntOp.andi_eq_one.1 e01
  -- each "for all" gives its test at every entry
  have a0 := fun i => Host.reduce_andi_all _ _ _ _ _ e0 i
  have a1 := fun i => Host.reduce_andi_all _ _ _ _ _ e1 i
  have a2 := fun i => Host.reduce_andi_all _ _ _ _ _ e2 i
  have a3 := fun i => Host.reduce_andi_all _ _ _ _ _ e3 i
  refine ⟨fun p s d => (x0 (ix3 p s d)).toReal, fun p s d => (x1 (ix3 p s d)).toReal,
    fun p i => ⟨(x2 (ix2 p i)).toNat, (word_of_elem _ x2 _ (a2 _)).1⟩,
    fun p i => ⟨(x3 (ix2 p i)).toNat, (word_of_elem _ x3 _ (a3 _)).1⟩, ?_, ?_, ?_, ?_⟩
  · intro p s d; exact real_of_elem _ x0 _ (a0 _)
  · intro p s d; exact real_of_elem _ x1 _ (a1 _)
  · intro p i; exact (word_of_elem _ x2 _ (a2 _)).2
  · intro p i; exact (word_of_elem _ x3 _ (a3 _)).2

end Cert.PreFacts

end
-- ==== Proof.Spec.lean ====
/-
  The masked-patch reconstruction loss as a real number, in the two arrangements the two programs compute.

  A sample `p` (of 64) has 2048 patches `s` of 512 features `d`; `A` is the prediction and `B` the target.
  `patchErr A B p s = ∑_d (A p s d − B p s d)²` is one patch's squared error. The masked list `mi p` (1536
  entries) and the unmasked list `ui p` (512 entries) name patches of sample `p`, repeats allowed.

  * GATHERED: per sample, the mean over the listed patches' features of the squared error; the two means are
    averaged over the batch and the unmasked one is scaled by `α`:
      `(∑_p (∑_i patchErr (mi p i)) / 786432) / 64 + α · ((∑_p (∑_i patchErr (ui p i)) / 262144) / 64)`.
  * WEIGHTED: every patch once, weighted by how often the lists name it,
      `(∑_p ∑_s patchErr p s · (hits mi p s / 786432 + α · hits ui p s / 262144)) / 64`.

  They are equal because a sum over a list of patch names is the sum over all patches of (number of times the
  patch is named) × (its term): `∑_i f (idx i) = ∑_s hits s · f s`, and everything else is linear.
-/
import Idealize.ShloMosaic.PureOps.Ideal

noncomputable section

namespace Cert.MaskedMse

open Finset

/-- One patch's squared reconstruction error, summed over its 512 features. -/
def patchErr (A B : Fin 64 → Fin 2048 → Fin 512 → ℝ) (p : Fin 64) (s : Fin 2048) : ℝ :=
  ∑ d : Fin 512, (A p s d - B p s d) * (A p s d - B p s d)

/-- How many entries of sample `p`'s list name patch `s`. -/
def hits {n : ℕ} (idx : Fin 64 → Fin n → Fin 2048) (p : Fin 64) (s : Fin 2048) : ℝ :=
  ((univ.filter fun i : Fin n => idx p i = s).card : ℝ)

/-- The weight patch `s` of sample `p` carries in the weighted arrangement. -/
def weight (α : ℝ) (mi : Fin 64 → Fin 1536 → Fin 2048) (ui : Fin 64 → Fin 512 → Fin 2048)
    (p : Fin 64) (s : Fin 2048) : ℝ :=
  hits mi p s / 786432 + α * hits ui p s / 262144

/-- One sample's weighted squared error: every patch once, times its weight. -/
def sampleLoss (α : ℝ) (A B : Fin 64 → Fin 2048 → Fin 512 → ℝ) (mi : Fin 64 → Fin 1536 → Fin 2048)
    (ui : Fin 64 → Fin 512 → Fin 2048) (p : Fin 64) : ℝ :=
  ∑ s : Fin 2048, patchErr A B p s * weight α mi ui p s

/-- The weighted arrangement: the batch mean of the samples' weighted errors. -/
def weightedLoss (α : ℝ) (A B : Fin 64 → Fin 2048 → Fin 512 → ℝ) (mi : Fin 64 → Fin 1536 → Fin 2048)
    (ui : Fin 64 → Fin 512 → Fin 2048) : ℝ :=
  (∑ p : Fin 64, sampleLoss α A B mi ui p) / 64

/-- The gathered arrangement: batch means of the per-sample means over the listed patches. -/
def gatheredLoss (α : ℝ) (A B : Fin 64 → Fin 2048 → Fin 512 → ℝ) (mi : Fin 64 → Fin 1536 → Fin 2048)
    (ui : Fin 64 → Fin 512 → Fin 2048) : ℝ :=
  (∑ p : Fin 64, (∑ i : Fin 1536, patchErr A B p (mi p i)) / 786432) / 64
    + α * ((∑ p : Fin 64, (∑ i : Fin 512, patchErr A B p (ui p i)) / 262144) / 64)

end Cert.MaskedMse

end
-- ==== Proof.SpecLaw.lean ====
/-
  The two arrangements of the loss are one real number.
-/
import proofs.«417517_j35751307772082_2_alg».proof.Proof.Spec

noncomputable section

namespace Cert.MaskedMse

open Finset

/-- A sum over a list of patch names is the sum over all patches of (times named) × (the patch's term). -/
theorem sum_comp_eq_sum_hits {n : ℕ} (idx : Fin 64 → Fin n → Fin 2048) (p : Fin 64) (f : Fin 2048 → ℝ) :
    ∑ i : Fin n, f (idx p i) = ∑ s : Fin 2048, hits idx p s * f s := by
  -- (times named) × term, written as a sum over the list of an indicator
  have h : ∀ s : Fin 2048,
      hits idx p s * f s = ∑ i : Fin n, if idx p i = s then f s else 0 := by
    intro s
    unfold hits
    rw [Finset.sum_ite, Finset.sum_const_zero, add_zero, Finset.sum_const, nsmul_eq_mul]
  -- swap the two sums; for a fixed list entry exactly one patch is hit
  calc ∑ i : Fin n, f (idx p i)
      = ∑ i : Fin n, ∑ s : Fin 2048, if idx p i = s then f s else 0 := by
        refine Finset.sum_congr rfl fun i _ => ?_
        rw [Finset.sum_ite_eq, if_pos (Finset.mem_univ _)]
    _ = ∑ s : Fin 2048, ∑ i : Fin n, if idx p i = s then f s else 0 := Finset.sum_comm
    _ = ∑ s : Fin 2048, hits idx p s * f s :=
        Finset.sum_congr rfl fun s _ => (h s).symm

/-- One sample: the weighted sum over all patches is the two list means, the second scaled by `α`. -/
theorem sampleLoss_eq_gathered (α : ℝ) (A B : Fin 64 → Fin 2048 → Fin 512 → ℝ)
    (mi : Fin 64 → Fin 1536 → Fin 2048) (ui : Fin 64 → Fin 512 → Fin 2048) (p : Fin 64) :
    sampleLoss α A B mi ui p
      = (∑ i : Fin 1536, patchErr A B p (mi p i)) / 786432
        + α * ((∑ i : Fin 512, patchErr A B p (ui p i)) / 262144) := by
  rw [sum_comp_eq_sum_hits mi p (patchErr A B p), sum_comp_eq_sum_hits ui p (patchErr A B p)]
  unfold sampleLoss weight
  rw [Finset.sum_div, Finset.sum_div, Finset.mul_sum, ← Finset.sum_add_distrib]
  refine Finset.sum_congr rfl fun s _ => ?_
  ring

/-- The weighted arrangement equals the gathered one. -/
theorem weightedLoss_eq_gatheredLoss (α : ℝ) (A B : Fin 64 → Fin 2048 → Fin 512 → ℝ)
    (mi : Fin 64 → Fin 1536 → Fin 2048) (ui : Fin 64 → Fin 512 → Fin 2048) :
    weightedLoss α A B mi ui = gatheredLoss α A B mi ui := by
  unfold weightedLoss gatheredLoss
  rw [Finset.sum_congr rfl fun p _ => sampleLoss_eq_gathered α A B mi ui p,
    Finset.sum_add_distrib, ← Finset.mul_sum, add_div, mul_div_assoc]

end Cert.MaskedMse

end
-- ==== Proof.KernelWeights.lean ====
/-
  The weight array the kernel's program computes on the host before the pipeline: entry (p, s) counts, by comparing
  every list entry with the patch number s and summing the 0/1 outcomes, how often the masked and the unmasked list
  of sample p name patch s, and combines the two counts as hits_m / 786432 + α · hits_u / 262144.
-/
import proofs.«417517_j35751307772082_2_alg».proof.Proof.Gen.KernelIdeal.Frame
import proofs.«417517_j35751307772082_2_alg».proof.Proof.Spec
import proofs.«417517_j35751307772082_2_alg».proof.Proof.Consts
import Idealize.ShloMosaic.Lib.ValueIdx
import Idealize.ShloMosaic.Lib.Pipeline.Value
import Idealize.ShloMosaic.Lib.StableHlo.Run
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.HostValue

open Cert.KernelIdeal Cert.KernelIdeal.Gen Cert.MaskedMse

variable (m : (ℓ : Loc nD τ sig) → Buf (Elt Ideal) ℓ)

/-! ## Counting by comparison -/

/-- The coercion of the reals into the extended reals passes through a finite sum. -/
theorem coe_finsum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- Two patch numbers, both below 2048 and so below 2³², have equal 32-bit words exactly when they are equal: the
    comparison's one-bit outcome, read as a number, is 1 when they agree and 0 when they differ. -/
theorem cmp_word (a b : Fin 2048) :
    (((IntOp.cmpi .eq (BitVec.ofNat 32 a.val) (BitVec.ofNat 32 b.val)).toNat : ℝ)) = if a = b then 1 else 0 := by
  by_cases h : a = b
  · subst h; simp [IntOp.cmpi]
  · have hne : BitVec.ofNat 32 a.val ≠ BitVec.ofNat 32 b.val := by
      intro e
      have := congrArg BitVec.toNat e
      simp only [BitVec.toNat_ofNat] at this
      have ha := a.isLt; have hb := b.isLt
      rw [Nat.mod_eq_of_lt (by omega), Nat.mod_eq_of_lt (by omega)] at this
      exact h (Fin.ext this)
    simp [IntOp.cmpi, hne, h]

/-- Summed over a list, the 0/1 outcomes of comparing each entry with patch `s` give the number of entries that name `s`. -/
theorem sum_outcomes {n : ℕ} (idx : Fin n → Fin 2048) (s : Fin 2048) :
    (∑ k : Fin n, ((((IntOp.cmpi .eq (BitVec.ofNat 32 (idx k).val) (BitVec.ofNat 32 s.val)).toNat : ℝ)) : EReal))
      = ((((Finset.univ.filter fun i : Fin n => idx i = s).card : ℝ)) : EReal) := by
  rw [← coe_finsum]
  congr 1
  rw [Finset.sum_congr rfl (fun k _ => cmp_word (idx k) s), Finset.sum_boole]

/-! ## The two count arrays -/

/-- The masked list's count array as the program forms it: the list is copied along a new patch axis, the patch numbers
    0 … 2047 along the sample and list axes, the two are compared entry by entry, each one-bit outcome is turned into
    the float 0 or 1, and the outcomes are summed over the list axis starting from zero. -/
def cntM (x : S64x1536.Idx → BitVec 32) : S64x2048.Idx → EReal :=
  Host.reduceAdd (F := Ideal)
    (uitofp (F := Ideal) .f32 (cmpi .eq
      (broadcastInDim S64x1536x2048 ![0, 1, 2] bcast_S64x1536x1_S64x1536x2048_0_1_2 (broadcastInDim S64x1536x1 ![0, 1] bcast_S64x1536_S64x1536x1_0_1 x))
      (broadcastInDim S64x1536x2048 ![0, 1, 2] bcast_S1x1x2048_S64x1536x2048_0_1_2 (broadcastInDim S1x1x2048 ![2] bcast_S2048_S1x1x2048_2 (iotaInDim S2048 32 0)))))
    (constant (F := Ideal) S_ .f32 0x00000000#32) reducesTo_S64x1536x2048_S64x2048_d1 h_S_

/-- The unmasked list's count array, formed the same way over its 512 entries. -/
def cntU (x : S64x512.Idx → BitVec 32) : S64x2048.Idx → EReal :=
  Host.reduceAdd (F := Ideal)
    (uitofp (F := Ideal) .f32 (cmpi .eq
      (broadcastInDim S64x512x2048 ![0, 1, 2] bcast_S64x512x1_S64x512x2048_0_1_2 (broadcastInDim S64x512x1 ![0, 1] bcast_S64x512_S64x512x1_0_1 x))
      (broadcastInDim S64x512x2048 ![0, 1, 2] bcast_S1x1x2048_S64x512x2048_0_1_2 (broadcastInDim S1x1x2048 ![2] bcast_S2048_S1x1x2048_2 (iotaInDim S2048 32 0)))))
    (constant (F := Ideal) S_ .f32 0x00000000#32) reducesTo_S64x512x2048_S64x2048_d1 h_S_

/-- At sample `p` and patch `s` the masked count is the sum over the list position `k` of the outcome of comparing entry `(p, k)`
    with `s` (the copied list reads `(p, k)` at `(p, k, s)`, the copied patch numbers read `s` there), hence the number of entries naming `s`. -/
theorem cntM_apply (x : S64x1536.Idx → BitVec 32) (mi : Fin 64 → Fin 1536 → Fin 2048)
    (hx : ∀ (p : Fin 64) (i : Fin 1536), x (ix2 p i) = BitVec.ofNat 32 (mi p i).val) (p : Fin 64) (s : Fin 2048) :
    cntM x (ix2 p s) = ((hits mi p s : ℝ) : EReal) := by
  unfold cntM
  simp only [Host.reduceAdd, Ideal.hostReduceAdd_def]
  refine (Ideal.hostReduceAdd_single reducesTo_S64x1536x2048_S64x2048_d1 (by decide) _ _ (ix2 p s)).trans ?_
  have hz : (constant (F := Ideal) S_ .f32 0x00000000#32) (Shape.Idx.first h_S_) = 0 := Cert.Consts.ofBits_zero
  rw [hz, zero_add]
  refine Eq.trans (Finset.sum_congr (s₁ := (Finset.univ : Finset (Fin 1536))) rfl fun k _ => ?_) (sum_outcomes (mi p) s)
  have hl : (Shape.Reduces.lift (s := S64x1536x2048) (t := S64x2048) (a := 1) (by decide) (ix2 p s) k) = ix3 p k s := by
    funext a
    match a with
    | ⟨0, _⟩ => exact Fin.ext rfl
    | ⟨1, _⟩ => exact Fin.ext rfl
    | ⟨2, _⟩ => exact Fin.ext rfl
  rw [hl]
  have hA : (broadcastInDim S64x1536x2048 ![0, 1, 2] bcast_S64x1536x1_S64x1536x2048_0_1_2 (broadcastInDim S64x1536x1 ![0, 1] bcast_S64x1536_S64x1536x1_0_1 x)) (ix3 p k s)
      = BitVec.ofNat 32 (mi p k).val :=
    (broadcastInDim_apply _ bcast_S64x1536x1_S64x1536x2048_0_1_2 _ (ix3 p k s) (ix3 p k (0 : Fin 1)) (fun a => match a with
      | ⟨0, _⟩ => rfl | ⟨1, _⟩ => rfl | ⟨2, _⟩ => rfl)).trans
    ((broadcastInDim_apply _ bcast_S64x1536_S64x1536x1_0_1 x (ix3 p k (0 : Fin 1)) (ix2 p k) (fun a => match a with
      | ⟨0, _⟩ => rfl | ⟨1, _⟩ => rfl)).trans (hx p k))
  have hB : (broadcastInDim S64x1536x2048 ![0, 1, 2] bcast_S1x1x2048_S64x1536x2048_0_1_2 (broadcastInDim S1x1x2048 ![2] bcast_S2048_S1x1x2048_2 (iotaInDim S2048 32 0))) (ix3 p k s)
      = BitVec.ofNat 32 s.val :=
    (broadcastInDim_apply _ bcast_S1x1x2048_S64x1536x2048_0_1_2 _ (ix3 p k s) (ix3 (0 : Fin 1) (0 : Fin 1) s) (fun a => match a with
      | ⟨0, _⟩ => rfl | ⟨1, _⟩ => rfl | ⟨2, _⟩ => rfl)).trans
    ((broadcastInDim_apply _ bcast_S2048_S1x1x2048_2 (iotaInDim S2048 32 0) (ix3 (0 : Fin 1) (0 : Fin 1) s) (ix1 s) (fun a => match a with
      | ⟨0, _⟩ => rfl)).trans rfl)
  exact congrArg (fun w : BitVec 1 => ((w.toNat : ℝ) : EReal)) (congrArg₂ (IntOp.cmpi .eq) hA hB)

/-- The same for the unmasked list. -/
theorem cntU_apply (x : S64x512.Idx → BitVec 32) (ui : Fin 64 → Fin 512 → Fin 2048)
    (hx : ∀ (p : Fin 64) (i : Fin 512), x (ix2 p i) = BitVec.ofNat 32 (ui p i).val) (p : Fin 64) (s : Fin 2048) :
    cntU x (ix2 p s) = ((hits ui p s : ℝ) : EReal) := by
  unfold cntU
  simp only [Host.reduceAdd, Ideal.hostReduceAdd_def]
  refine (Ideal.hostReduceAdd_single reducesTo_S64x512x2048_S64x2048_d1 (by decide) _ _ (ix2 p s)).trans ?_
  have hz : (constant (F := Ideal) S_ .f32 0x00000000#32) (Shape.Idx.first h_S_) = 0 := Cert.Consts.ofBits_zero
  rw [hz, zero_add]
  refine Eq.trans (Finset.sum_congr (s₁ := (Finset.univ : Finset (Fin 512))) rfl fun k _ => ?_) (sum_outcomes (ui p) s)
  have hl : (Shape.Reduces.lift (s := S64x512x2048) (t := S64x2048) (a := 1) (by decide) (ix2 p s) k) = ix3 p k s := by
    funext a
    match a with
    | ⟨0, _⟩ => exact Fin.ext rfl
    | ⟨1, _⟩ => exact Fin.ext rfl
    | ⟨2, _⟩ => exact Fin.ext rfl
  rw [hl]
  have hA : (broadcastInDim S64x512x2048 ![0, 1, 2] bcast_S64x512x1_S64x512x2048_0_1_2 (broadcastInDim S64x512x1 ![0, 1] bcast_S64x512_S64x512x1_0_1 x)) (ix3 p k s)
      = BitVec.ofNat 32 (ui p k).val :=
    (broadcastInDim_apply _ bcast_S64x512x1_S64x512x2048_0_1_2 _ (ix3 p k s) (ix3 p k (0 : Fin 1)) (fun a => match a with
      | ⟨0, _⟩ => rfl | ⟨1, _⟩ => rfl | ⟨2, _⟩ => rfl)).trans
    ((broadcastInDim_apply _ bcast_S64x512_S64x512x1_0_1 x (ix3 p k (0 : Fin 1)) (ix2 p k) (fun a => match a with
      | ⟨0, _⟩ => rfl | ⟨1, _⟩ => rfl)).trans (hx p k))
  have hB : (broadcastInDim S64x512x2048 ![0, 1, 2] bcast_S1x1x2048_S64x512x2048_0_1_2 (broadcastInDim S1x1x2048 ![2] bcast_S2048_S1x1x2048_2 (iotaInDim S2048 32 0))) (ix3 p k s)
      = BitVec.ofNat 32 s.val :=
    (broadcastInDim_apply _ bcast_S1x1x2048_S64x512x2048_0_1_2 _ (ix3 p k s) (ix3 (0 : Fin 1) (0 : Fin 1) s) (fun a => match a with
      | ⟨0, _⟩ => rfl | ⟨1, _⟩ => rfl | ⟨2, _⟩ => rfl)).trans
    ((broadcastInDim_apply _ bcast_S2048_S1x1x2048_2 (iotaInDim S2048 32 0) (ix3 (0 : Fin 1) (0 : Fin 1) s) (ix1 s) (fun a => match a with
      | ⟨0, _⟩ => rfl)).trans rfl)
  exact congrArg (fun w : BitVec 1 => ((w.toNat : ℝ) : EReal)) (congrArg₂ (IntOp.cmpi .eq) hA hB)

/-! ## The weight array -/

/-- A number copied over the whole [64, 2048] array reads that number at every entry. -/
theorem splat_apply (b : BitVec 32) (j : S64x2048.Idx) :
    broadcastInDim S64x2048 ![] bcast_S_S64x2048 (constant (F := Ideal) S_ .f32 b) j = Ideal.ofBits .f32 b :=
  (broadcastInDim_apply _ bcast_S_S64x2048 (constant (F := Ideal) S_ .f32 b) j (fun a => a.elim0) (fun a => a.elim0)).trans rfl

/-- The array the pipeline's third window stages, as one term over the two index lists: the masked counts divided by
    786432, plus α times the unmasked counts divided by 262144, all entry by entry. -/
theorem V20_eq (c : Dev nD) :
    (V (F := Ideal) m c main_v20 : S64x2048.Idx → EReal)
      = addf (F := Ideal)
          (Host.divf (F := Ideal) (cntM (m ((c.tc : Thread nD τ).loc main_arg2)))
            (broadcastInDim S64x2048 ![] bcast_S_S64x2048 (constant (F := Ideal) S_ .f32 0x49400000#32)))
          (Host.divf (F := Ideal)
            (mulf (F := Ideal) (broadcastInDim S64x2048 ![] bcast_S_S64x2048 (constant (F := Ideal) S_ .f32 0x3DCCCCCD#32))
              (cntU (m ((c.tc : Thread nD τ).loc main_arg3))))
            (broadcastInDim S64x2048 ![] bcast_S_S64x2048 (constant (F := Ideal) S_ .f32 0x48800000#32))) := by
  show StableHlo.after hostOps0 (fun b => m (c, b)) (Proc.devRef .tc main_v20) = _
  after_results
  rfl

/-- The array the pipeline's third window stages holds the real weights of the weighted arrangement. -/
theorem weights (c : Dev nD) (mi : Fin 64 → Fin 1536 → Fin 2048) (ui : Fin 64 → Fin 512 → Fin 2048)
    (hm : ∀ (p : Fin 64) (i : Fin 1536), (m ((c.tc : Thread nD τ).loc main_arg2) : S64x1536.Idx → BitVec 32) (ix2 p i) = BitVec.ofNat 32 (mi p i).val)
    (hu : ∀ (p : Fin 64) (i : Fin 512), (m ((c.tc : Thread nD τ).loc main_arg3) : S64x512.Idx → BitVec 32) (ix2 p i) = BitVec.ofNat 32 (ui p i).val)
    (p : Fin 64) (s : Fin 2048) :
    (V (F := Ideal) m c main_v20 : S64x2048.Idx → EReal) (ix2 p s) = ((weight Cert.Consts.alpha mi ui p s : ℝ) : EReal) := by
  refine (congrFun (V20_eq m c) (ix2 p s)).trans ?_
  show Ideal.div (cntM (m ((c.tc : Thread nD τ).loc main_arg2)) (ix2 p s))
        (broadcastInDim S64x2048 ![] bcast_S_S64x2048 (constant (F := Ideal) S_ .f32 0x49400000#32) (ix2 p s))
      + Ideal.div
        (broadcastInDim S64x2048 ![] bcast_S_S64x2048 (constant (F := Ideal) S_ .f32 0x3DCCCCCD#32) (ix2 p s)
          * cntU (m ((c.tc : Thread nD τ).loc main_arg3)) (ix2 p s))
        (broadcastInDim S64x2048 ![] bcast_S_S64x2048 (constant (F := Ideal) S_ .f32 0x48800000#32) (ix2 p s)) = _
  rw [splat_apply, splat_apply, splat_apply, cntM_apply _ mi hm, cntU_apply _ ui hu,
    Cert.Consts.ofBits_786432, Cert.Consts.ofBits_alpha, Cert.Consts.ofBits_262144,
    Ideal.div_coe (by norm_num), Ideal.div_coe (by norm_num)]
  -- the quotients by nonzero reals are products with reciprocals, so everything is a real number: finish in ℝ
  rw [← EReal.coe_mul, ← EReal.coe_mul, ← EReal.coe_mul, ← EReal.coe_add]
  refine congrArg (fun r : ℝ => (r : EReal)) ?_
  unfold weight
  ring

end Cert.KernelIdeal.HostValue

end
-- ==== Proof.KernelPieces.lean ====
/-
  What one grid point of the pipeline leaves in the 8×1 result block.

  The body reads its three input blocks — 8 samples × 512 patches × 512 features of the prediction and of the target,
  and the 8 × 512 weights — in four chunks of 128 patches. For each chunk it forms the squared differences, sums them
  over the features, multiplies by the weights and sums over the chunk's 128 patches; the four chunk totals are added,
  first to last, onto a zero column, and that column is added onto what the result block held. At the first point of a
  row of the grid the block is first reset to zero, so what it "held" is the zero column just stored.
-/
import proofs.«417517_j35751307772082_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Value

open Cert.KernelIdeal Cert.KernelIdeal.Gen

variable {F : FTy → Type} [FloatOps F]

theorem hz : (![0, 0] : Fin 2 → Nat) = fun _ => 0 := funext fun a => by fin_cases a <;> rfl

/-- Patches `128k … 128k + 127` of a prediction or target block. -/
def chunk3 (k : Fin 4) (x : Vec F S8x512x512 .f32) : Vec F S8x128x512 .f32 :=
  View.ld x (Rect.unit (s := S8x512x512) (k0_off1 (BitVec.ofNat 32 k.val)) S8x128x512.size (k0_off1_inb k))

/-- Patches `128k … 128k + 127` of a weight block. -/
def chunk2 (k : Fin 4) (w : Vec F S8x512 .f32) : Vec F S8x128 .f32 :=
  View.ld w (Rect.unit (s := S8x512) (k0_off2 (BitVec.ofNat 32 k.val)) S8x128.size (k0_off2_inb k))

/-- The column one grid point leaves: what the block held, plus the four chunk totals of the point's blocks. -/
def pointVal (x0 x1 : Vec F S8x512x512 .f32) (x2 : Vec F S8x512 .f32) (xo : Vec F S8x1 .f32) : Vec F S8x1 .f32 :=
  k0_pay3 (k0_pay2 (chunk3 0 x0) (chunk3 0 x1) (chunk2 0 x2) (chunk3 1 x0) (chunk3 1 x1) (chunk2 1 x2))
    (chunk3 2 x0) (chunk3 2 x1) (chunk2 2 x2) (chunk3 3 x0) (chunk3 3 x1) (chunk2 3 x2) xo

/-- The zero column the reset stores. -/
abbrev zeroCol : Vec F S8x1 .f32 := k0_pay1

/-- A point that does not start a row of the grid adds its four chunk totals onto what the block held. -/
theorem out_B (c : Dev nD) (i : grid0.Coords) (a2 : Memref sig .tc .vmem S8x512x512 .f32) (h2 : a2.IsWhole)
    (a3 : Memref sig .tc .vmem S8x512x512 .f32) (h3 : a3.IsWhole) (a4 : Memref sig .tc .vmem S8x512 .f32) (h4 : a4.IsWhole)
    (a5 : Memref sig .tc .vmem S8x1 .f32) (h5 : a5.IsWhole) (hc : ¬cond0_0 i)
    (x0 x1 : Vec F S8x512x512 .f32) (x2 : Vec F S8x512 .f32) (xo : Vec F S8x1 .f32) :
    out0_B_3 c i a2 h2 a3 h3 a4 h4 a5 h5 hc x0 x1 x2 xo = pointVal x0 x1 x2 xo := by
  unfold out0_B_3
  rw [View.read_writes_eq_canon _ _ _ (cover0_B_3 c i a2 h2 a3 h3 a4 h4 a5 h5 hc x0 x1 x2 xo)]
  unfold kernelRun0_B
  dsimp only
  sl_unfold_words
  rw [View.canon_unit_zero hz]
  simp only [View.readAt_eq_ld, h2.read_unread, h3.read_unread, h4.read_unread, h5.read_unread,
    View.ld_unit_zero (S := S8x1) hz]
  rfl

/-- A point that starts a row of the grid stores the zero column first, so it leaves its chunk totals over zero. -/
theorem out_A (c : Dev nD) (i : grid0.Coords) (a2 : Memref sig .tc .vmem S8x512x512 .f32) (h2 : a2.IsWhole)
    (a3 : Memref sig .tc .vmem S8x512x512 .f32) (h3 : a3.IsWhole) (a4 : Memref sig .tc .vmem S8x512 .f32) (h4 : a4.IsWhole)
    (a5 : Memref sig .tc .vmem S8x1 .f32) (h5 : a5.IsWhole) (hc : cond0_0 i)
    (x0 x1 : Vec F S8x512x512 .f32) (x2 : Vec F S8x512 .f32) :
    out0_A_3 c i a2 h2 a3 h3 a4 h4 a5 h5 hc x0 x1 x2 = pointVal x0 x1 x2 zeroCol := by
  unfold out0_A_3
  rw [View.read_writes_eq_canon _ _ _ (cover0_A_3 c i a2 h2 a3 h3 a4 h4 a5 h5 hc x0 x1 x2)]
  unfold kernelRun0_A
  dsimp only
  sl_unfold_words
  rw [View.canon_cons_unit_zero (S := S8x1) hz, View.readCov_unit_zero (S := S8x1) _ hz]
  simp only [View.readAt_eq_ld, h2.read_unread, h3.read_unread, h4.read_unread]
  rfl

end Cert.KernelIdeal.Value

end
-- ==== Proof.LibBlockSum.lean ====
/-
  A sum over the first `N·B` naturals taken block by block, `B` consecutive terms at a time: the bookkeeping
  step between a column sum over all rows of an array and the same sum accumulated over consecutive row blocks
  of equal height. Stated for any additive commutative monoid (so for the extended reals as well), over a summand
  defined on every natural so that no bound proofs enter the statement; the `Fin` forms read the summand at the
  values of the indices.
-/
import Mathlib.Algebra.BigOperators.Fin
import Mathlib.Algebra.BigOperators.Intervals

open scoped BigOperators

namespace Cert.LibBlockSum

variable {β : Type*} [AddCommMonoid β]

/-- The first `(N + 1)·B` terms are the first `N·B` terms and then the `B` terms of block `N`. -/
theorem sum_range_succ_block (g : ℕ → β) (B N : ℕ) :
    ∑ i ∈ Finset.range (B * (N + 1)), g i
      = ∑ i ∈ Finset.range (B * N), g i + ∑ k ∈ Finset.range B, g (B * N + k) := by
  rw [Nat.mul_succ, Finset.sum_range_add]

/-- The first `N·B` terms, block by block: block `s` holds the terms `B·s … B·s + B − 1`. -/
theorem sum_range_blocks (g : ℕ → β) (B : ℕ) :
    ∀ N : ℕ, ∑ i ∈ Finset.range (B * N), g i = ∑ s ∈ Finset.range N, ∑ k ∈ Finset.range B, g (B * s + k)
  | 0 => by simp
  | N + 1 => by rw [sum_range_succ_block, sum_range_blocks g B N, Finset.sum_range_succ]

/-- The same with both index sets as `Fin` types: a sum over `Fin M`, `M = B·N`, is the sum over the `N` blocks
    of the sum over the `B` positions inside a block. -/
theorem sum_fin_blocks (g : ℕ → β) {M B N : ℕ} (h : B * N = M) :
    ∑ r : Fin M, g r.val = ∑ s ∈ Finset.range N, ∑ k : Fin B, g (B * s + k.val) := by
  subst h
  rw [Fin.sum_univ_eq_sum_range (fun i => g i) (B * N), sum_range_blocks]
  exact Finset.sum_congr rfl fun s _ => (Fin.sum_univ_eq_sum_range (fun k => g (B * s + k)) B).symm

/-- The partial form an induction over the blocks uses: the terms below `B·(n + 1)` are those below `B·n` and
    block `n`'s, the block's as a `Fin` sum. -/
theorem sum_range_succ_block_fin (g : ℕ → β) (B n : ℕ) :
    ∑ i ∈ Finset.range (B * (n + 1)), g i = ∑ i ∈ Finset.range (B * n), g i + ∑ k : Fin B, g (B * n + k.val) := by
  rw [sum_range_succ_block, Fin.sum_univ_eq_sum_range (fun k => g (B * n + k)) B]

/-- AN ACCUMULATOR OVER THE BLOCKS. A quantity that is zero plus block 0's sum at step 0 and at each later step adds
    the next block's sum to what it was, is after step `n` the sum of all the terms below the end of block `n`
    (the bound proofs of the steps are threaded, as a recursion over the points of a grid carries them). -/
theorem fold_eq_prefix (g : ℕ → β) (B : ℕ) {N : ℕ} (s : (n : ℕ) → n < N → β)
    (h0 : ∀ h : 0 < N, s 0 h = 0 + ∑ k : Fin B, g (B * 0 + k.val))
    (hs : ∀ (n : ℕ) (h : n + 1 < N), s (n + 1) h = s n (Nat.lt_of_succ_lt h) + ∑ k : Fin B, g (B * (n + 1) + k.val)) :
    ∀ (n : ℕ) (h : n < N), s n h = ∑ i ∈ Finset.range (B * (n + 1)), g i
  | 0, h => by
    rw [h0 h, sum_range_succ_block_fin, Nat.mul_zero, Finset.range_zero, Finset.sum_empty]
  | n + 1, h => by
    rw [hs n h, fold_eq_prefix g B s h0 hs n (Nat.lt_of_succ_lt h), ← sum_range_succ_block_fin]

/-- … so after the step whose block ends at `M` it is the whole sum over `Fin M`. -/
theorem fold_eq_total (g : ℕ → β) (B : ℕ) {M N : ℕ} (s : (n : ℕ) → n < N → β)
    (h0 : ∀ h : 0 < N, s 0 h = 0 + ∑ k : Fin B, g (B * 0 + k.val))
    (hs : ∀ (n : ℕ) (h : n + 1 < N), s (n + 1) h = s n (Nat.lt_of_succ_lt h) + ∑ k : Fin B, g (B * (n + 1) + k.val))
    (n : ℕ) (h : n < N) (hM : B * (n + 1) = M) : s n h = ∑ r : Fin M, g r.val := by
  subst hM
  rw [fold_eq_prefix g B s h0 hs n h, Fin.sum_univ_eq_sum_range (fun i => g i) (B * (n + 1))]

end Cert.LibBlockSum
-- ==== Proof.KernelPoint.lean ====
/-
  One grid point's contribution as a real number.

  With real-valued blocks — prediction `a`, target `b` (8 samples × 512 patches × 512 features) and weights `w`
  (8 × 512) — the column a point leaves is, in row `r`, what the block held there plus
  `∑_{s < 512} (∑_d (a r s d − b r s d)²) · w r s`: each of the four chunks contributes the 128 terms of its
  patches (a sum over the features inside a sum over the chunk's patches, then the unit axis restored), and the
  four chunk totals added in order onto zero are the sum over all 512 patches taken block by block.
-/
import proofs.«417517_j35751307772082_2_alg».proof.Proof.KernelPieces
import proofs.«417517_j35751307772082_2_alg».proof.Proof.LibBlockSum
import proofs.«417517_j35751307772082_2_alg».proof.Proof.Consts
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.KernelIdeal.Value

open Cert.KernelIdeal Cert.KernelIdeal.Gen

/-- The real numbers sit in the extended reals additively, so a finite sum may be taken on either side. -/
theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

section Generic

variable {F : FTy → Type} [FloatOps F]

/-- One chunk's total, as a column: squared differences summed over the features, times the weights, summed over the
    chunk's 128 patches. -/
def chunkTotal (u v : Vec F S8x128x512 .f32) (wk : Vec F S8x128 .f32) : FVec F S8x1 .f32 :=
  shapeCast S8x1
    (multiReduction .add [1] S8
      (mulf (multiReduction .add [2] S8x128 (mulf (subf u v) (subf u v)) 0x00000000#32 reduces_S8x128x512_S8x128 (.inl rfl) rfl)
        (shapeCast S8x128 wk shapeCasts_S8x128_S8x128))
      0x00000000#32 reduces_S8x128_S8 (.inl rfl) rfl)
    shapeCasts_S8_S8x1

/-- A point's column is what the block held plus the four chunk totals added in order onto the zero column. -/
theorem pointVal_eq (x0 x1 : Vec F S8x512x512 .f32) (x2 : Vec F S8x512 .f32) (xo : Vec F S8x1 .f32) :
    pointVal x0 x1 x2 xo
      = addf (shapeCast S8x1 xo shapeCasts_S8x1_S8x1)
          (addf (addf (addf (addf (broadcast S8x1 (Scalar.ofBits .f32 0x00000000#32))
            (chunkTotal (chunk3 0 x0) (chunk3 0 x1) (chunk2 0 x2)))
            (chunkTotal (chunk3 1 x0) (chunk3 1 x1) (chunk2 1 x2)))
            (chunkTotal (chunk3 2 x0) (chunk3 2 x1) (chunk2 2 x2)))
            (chunkTotal (chunk3 3 x0) (chunk3 3 x1) (chunk2 3 x2))) := rfl

end Generic

/-- Inserting patch `j` into row `r` of a chunk's column sum names entry `(r, j)`. -/
theorem lift_patch (h : S8x128.Reduces [1] S8) (r : Fin 8) (j : Fin 128) : h.lift (ix1 r) j = ix2 r j := by
  funext c; apply Fin.ext
  match c with
  | ⟨0, _⟩ => rfl
  | ⟨1, _⟩ => rfl

/-- Inserting feature `d` into entry `(r, j)` of a chunk's feature sum names entry `(r, j, d)`. -/
theorem lift_feature (h : S8x128x512.Reduces [2] S8x128) (r : Fin 8) (j : Fin 128) (d : Fin 512) :
    h.lift (ix2 r j) d = ix3 r j d := by
  funext c; apply Fin.ext
  match c with
  | ⟨0, _⟩ => rfl
  | ⟨1, _⟩ => rfl
  | ⟨2, _⟩ => rfl

/-- A chunk's total on real-valued data is the real double sum. -/
theorem chunkTotal_apply (u v : Vec Ideal S8x128x512 .f32) (wk : Vec Ideal S8x128 .f32)
    (α β : Fin 8 → Fin 128 → Fin 512 → ℝ) (ω : Fin 8 → Fin 128 → ℝ)
    (hu : ∀ (r : Fin 8) (j : Fin 128) (d : Fin 512), u (ix3 r j d) = ((α r j d : ℝ) : EReal))
    (hv : ∀ (r : Fin 8) (j : Fin 128) (d : Fin 512), v (ix3 r j d) = ((β r j d : ℝ) : EReal))
    (hw : ∀ (r : Fin 8) (j : Fin 128), wk (ix2 r j) = ((ω r j : ℝ) : EReal)) (r : Fin 8) :
    chunkTotal u v wk (ix2 r 0)
      = ((∑ j : Fin 128, (∑ d : Fin 512, (α r j d - β r j d) * (α r j d - β r j d)) * ω r j : ℝ) : EReal) := by
  unfold chunkTotal
  refine (shapeCast_apply _ shapeCasts_S8_S8x1 (ix2 r 0) (ix1 r) ?_).trans ?_
  · rw [Shape.rowMajor_val_one, Shape.rowMajor_val_two]; simp
  refine (Ideal.multiReduction_add_single _ 0x00000000#32 reduces_S8x128_S8 (.inl rfl) rfl (ix1 r)).trans ?_
  rw [coe_sum]
  refine Finset.sum_congr rfl fun (j : Fin 128) _ => ?_
  rw [lift_patch, mulf_apply, shapeCast_self, hw]
  refine (congrArg (· * ((ω r j : ℝ) : EReal)) ?_).trans (EReal.coe_mul _ _).symm
  refine (Ideal.multiReduction_add_single _ 0x00000000#32 reduces_S8x128x512_S8x128 (.inl rfl) rfl (ix2 r j)).trans ?_
  rw [coe_sum]
  refine Finset.sum_congr rfl fun (d : Fin 512) _ => ?_
  rw [lift_feature, mulf_apply, subf_apply, hu, hv, ← EReal.coe_sub, ← EReal.coe_mul]

/-- Chunk `k` of a block starts at patch `128·k`. -/
theorem off1_eq : ∀ k : Fin 4, k0_off1 (BitVec.ofNat 32 k.val) = ![0, 128 * k.val, 0] := by decide +kernel
theorem off2_eq : ∀ k : Fin 4, k0_off2 (BitVec.ofNat 32 k.val) = ![0, 128 * k.val] := by decide +kernel

section Generic

variable {F : FTy → Type} [FloatOps F]

/-- Entry `(r, j, d)` of chunk `k` is entry `(r, 128·k + j, d)` of the block. -/
theorem chunk3_apply (k : Fin 4) (x : Vec F S8x512x512 .f32) (r : Fin 8) (j : Fin 128) (d : Fin 512) :
    chunk3 k x (ix3 r j d) = x (ix3 r ⟨128 * k.val + j.val, by have := k.isLt; have := j.isLt; omega⟩ d) := by
  unfold chunk3
  show x _ = x _
  refine congrArg x (funext fun a => Fin.ext ?_)
  have e := off1_eq k
  match a with
  | ⟨0, _⟩ => show k0_off1 (BitVec.ofNat 32 k.val) 0 + 1 * r.val = r.val; rw [e]; simp
  | ⟨1, _⟩ => show k0_off1 (BitVec.ofNat 32 k.val) 1 + 1 * j.val = 128 * k.val + j.val; rw [e]; simp
  | ⟨2, _⟩ => show k0_off1 (BitVec.ofNat 32 k.val) 2 + 1 * d.val = d.val; rw [e]; simp

/-- Entry `(r, j)` of chunk `k` of the weights is entry `(r, 128·k + j)` of the weight block. -/
theorem chunk2_apply (k : Fin 4) (w : Vec F S8x512 .f32) (r : Fin 8) (j : Fin 128) :
    chunk2 k w (ix2 r j) = w (ix2 r ⟨128 * k.val + j.val, by have := k.isLt; have := j.isLt; omega⟩) := by
  unfold chunk2
  show w _ = w _
  refine congrArg w (funext fun a => Fin.ext ?_)
  have e := off2_eq k
  match a with
  | ⟨0, _⟩ => show k0_off2 (BitVec.ofNat 32 k.val) 0 + 1 * r.val = r.val; rw [e]; simp
  | ⟨1, _⟩ => show k0_off2 (BitVec.ofNat 32 k.val) 1 + 1 * j.val = 128 * k.val + j.val; rw [e]; simp

end Generic

/-- One patch's weighted squared error inside a block whose real data are given on the natural numbers. -/
def blockTerm (a b : ℕ → ℕ → ℕ → ℝ) (w : ℕ → ℕ → ℝ) (r s : ℕ) : ℝ :=
  (∑ d : Fin 512, (a r s d.val - b r s d.val) * (a r s d.val - b r s d.val)) * w r s

/-- A POINT'S COLUMN ON REAL DATA: what the block held plus the 512 patches' weighted squared errors. The four chunk
    totals, added in order onto zero, are the sum over the 512 patches taken in four blocks of 128. -/
theorem pointVal_apply (x0 x1 : Vec Ideal S8x512x512 .f32) (x2 : Vec Ideal S8x512 .f32) (xo : Vec Ideal S8x1 .f32)
    (a b : ℕ → ℕ → ℕ → ℝ) (w : ℕ → ℕ → ℝ)
    (ha : ∀ (r : Fin 8) (s : Fin 512) (d : Fin 512), x0 (ix3 r s d) = ((a r.val s.val d.val : ℝ) : EReal))
    (hb : ∀ (r : Fin 8) (s : Fin 512) (d : Fin 512), x1 (ix3 r s d) = ((b r.val s.val d.val : ℝ) : EReal))
    (hw : ∀ (r : Fin 8) (s : Fin 512), x2 (ix2 r s) = ((w r.val s.val : ℝ) : EReal)) (r : Fin 8) :
    pointVal x0 x1 x2 xo (ix2 r 0)
      = xo (ix2 r 0) + ((∑ s : Fin 512, blockTerm a b w r.val s.val : ℝ) : EReal) := by
  have hc : ∀ k : Fin 4, chunkTotal (chunk3 k x0) (chunk3 k x1) (chunk2 k x2) (ix2 r 0)
      = ((∑ j : Fin 128, blockTerm a b w r.val (128 * k.val + j.val) : ℝ) : EReal) := fun k =>
    chunkTotal_apply (chunk3 k x0) (chunk3 k x1) (chunk2 k x2)
      (fun r j d => a r.val (128 * k.val + j.val) d.val) (fun r j d => b r.val (128 * k.val + j.val) d.val)
      (fun r j => w r.val (128 * k.val + j.val))
      (fun r j d => by rw [chunk3_apply, ha]) (fun r j d => by rw [chunk3_apply, hb])
      (fun r j => by rw [chunk2_apply, hw]) r
  rw [pointVal_eq]
  simp only [addf_apply, shapeCast_self, broadcast_apply]
  rw [hc 0, hc 1, hc 2, hc 3]
  rw [show Scalar.ofBits (F := Ideal) .f32 0x00000000#32 = (((0 : ℝ)) : EReal) from Cert.Consts.ofBits_zero.trans EReal.coe_zero.symm]
  rw [← EReal.coe_add, ← EReal.coe_add, ← EReal.coe_add, ← EReal.coe_add]
  congr 2
  rw [Cert.LibBlockSum.sum_fin_blocks (fun s => blockTerm a b w r.val s) (show 128 * 4 = 512 from rfl)]
  simp [Finset.sum_range_succ]

end Cert.KernelIdeal.Value

end
-- ==== Proof.KernelValue.lean ====
/-
  What the pipeline leaves in its result array: row p holds sample p's weighted squared error.

  The grid is 8 × 4: point t works on samples 8·(t / 4) … 8·(t / 4) + 7 and patches 512·(t % 4) … 512·(t % 4) + 511.
  The result block of a row of the grid is reset at its first point and written back after its fourth, so after
  point t the block holds, for each of its 8 samples, the sum of the weighted squared errors of the patches
  below 512·(t % 4 + 1) — by induction on the point, a block of 512 patches at a time — and what is written back
  after the fourth point is the sum over all 2048 patches. The eight write-backs tile the 64 rows of the array.
-/
import proofs.«417517_j35751307772082_2_alg».proof.Proof.KernelPoint
import proofs.«417517_j35751307772082_2_alg».proof.Proof.Spec
import Idealize.ShloMosaic.Lib.ValueIdx
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Value

open Cert.KernelIdeal Cert.KernelIdeal.Gen Cert.MaskedMse

variable (m : (ℓ : Loc nD τ sig) → Buf (Elt Ideal) ℓ)

/-- Where each window's block sits at point `t`, decided over the 32 points: the sample block is `t / 4`, the patch
    block `t % 4`. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = t.val % 4 ∧ win0_1.index t (2 : Fin 3) = 0
    ∧ win0_2.index t (0 : Fin 2) = t.val / 4 ∧ win0_2.index t (1 : Fin 2) = t.val % 4
    ∧ win0_3.index t (0 : Fin 2) = t.val / 4 ∧ win0_3.index t (1 : Fin 2) = 0 :=
  (by decide +kernel : ∀ t : Fin grid0.N, _)

theorem N32 : cfg0.N = 32 := N_0

theorem t_lt (t : Fin cfg0.N) : t.val < 32 := lt_of_lt_of_eq t.isLt N32

/-- Entry `(r, s, d)` of the prediction block at point `t` is entry `(8·(t/4) + r, 512·(t%4) + s, d)` of the array. -/
theorem iblk0_apply (c : Dev nD) (t : Fin cfg0.N) (r : Fin 8) (s : Fin 512) (d : Fin 512) :
    (iblk m c 0 t : S8x512x512.Idx → EReal) (ix3 r s d)
      = (V m c main_arg0 : S64x2048x512.Idx → EReal)
          (ix3 ⟨8 * (t.val / 4) + r.val, by have := t_lt t; have := r.isLt; omega⟩
            ⟨512 * (t.val % 4) + s.val, by have := s.isLt; omega⟩ d) := by
  obtain ⟨e0, e1, e2, -⟩ := idx_facts t
  unfold iblk
  rw [View.read_apply]
  show V m c main_arg0 _ = V m c main_arg0 _
  congr 1
  funext a
  apply Fin.ext
  match a with
  | ⟨0, _⟩ => show win0_0.index t (0 : Fin 3) * 8 + 1 * r.val = 8 * (t.val / 4) + r.val; rw [e0]; omega
  | ⟨1, _⟩ => show win0_0.index t (1 : Fin 3) * 512 + 1 * s.val = 512 * (t.val % 4) + s.val; rw [e1]; omega
  | ⟨2, _⟩ => show win0_0.index t (2 : Fin 3) * 512 + 1 * d.val = d.val; rw [e2]; omega

/-- The same for the target block. -/
theorem iblk1_apply (c : Dev nD) (t : Fin cfg0.N) (r : Fin 8) (s : Fin 512) (d : Fin 512) :
    (iblk m c 1 t : S8x512x512.Idx → EReal) (ix3 r s d)
      = (V m c main_arg1 : S64x2048x512.Idx → EReal)
          (ix3 ⟨8 * (t.val / 4) + r.val, by have := t_lt t; have := r.isLt; omega⟩
            ⟨512 * (t.val % 4) + s.val, by have := s.isLt; omega⟩ d) := by
  obtain ⟨-, -, -, e0, e1, e2, -⟩ := idx_facts t
  unfold iblk
  rw [View.read_apply]
  show V m c main_arg1 _ = V m c main_arg1 _
  congr 1
  funext a
  apply Fin.ext
  match a with
  | ⟨0, _⟩ => show win0_1.index t (0 : Fin 3) * 8 + 1 * r.val = 8 * (t.val / 4) + r.val; rw [e0]; omega
  | ⟨1, _⟩ => show win0_1.index t (1 : Fin 3) * 512 + 1 * s.val = 512 * (t.val % 4) + s.val; rw [e1]; omega
  | ⟨2, _⟩ => show win0_1.index t (2 : Fin 3) * 512 + 1 * d.val = d.val; rw [e2]; omega

/-- Entry `(r, s)` of the weight block at point `t` is entry `(8·(t/4) + r, 512·(t%4) + s)` of the weight array. -/
theorem iblk2_apply (c : Dev nD) (t : Fin cfg0.N) (r : Fin 8) (s : Fin 512) :
    (iblk m c 2 t : S8x512.Idx → EReal) (ix2 r s)
      = (V m c main_v20 : S64x2048.Idx → EReal)
          (ix2 ⟨8 * (t.val / 4) + r.val, by have := t_lt t; have := r.isLt; omega⟩
            ⟨512 * (t.val % 4) + s.val, by have := s.isLt; omega⟩) := by
  obtain ⟨-, -, -, -, -, -, e0, e1, -⟩ := idx_facts t
  unfold iblk
  rw [View.read_apply]
  show V m c main_v20 _ = V m c main_v20 _
  congr 1
  funext a
  apply Fin.ext
  match a with
  | ⟨0, _⟩ => show win0_2.index t (0 : Fin 2) * 8 + 1 * r.val = 8 * (t.val / 4) + r.val; rw [e0]; omega
  | ⟨1, _⟩ => show win0_2.index t (1 : Fin 2) * 512 + 1 * s.val = 512 * (t.val % 4) + s.val; rw [e1]; omega

/-! ## The data on the natural numbers

So that no bound proof enters a sum, the real data are extended by zero to all natural indices. -/

def nat3 (A : Fin 64 → Fin 2048 → Fin 512 → ℝ) (p s d : ℕ) : ℝ :=
  if h : p < 64 ∧ s < 2048 ∧ d < 512 then A ⟨p, h.1⟩ ⟨s, h.2.1⟩ ⟨d, h.2.2⟩ else 0

def nat2 (W : Fin 64 → Fin 2048 → ℝ) (p s : ℕ) : ℝ :=
  if h : p < 64 ∧ s < 2048 then W ⟨p, h.1⟩ ⟨s, h.2⟩ else 0

theorem nat3_val (A : Fin 64 → Fin 2048 → Fin 512 → ℝ) (p : Fin 64) (s : Fin 2048) (d : Fin 512) :
    nat3 A p.val s.val d.val = A p s d := by
  unfold nat3; rw [dif_pos ⟨p.isLt, s.isLt, d.isLt⟩]

theorem nat2_val (W : Fin 64 → Fin 2048 → ℝ) (p : Fin 64) (s : Fin 2048) : nat2 W p.val s.val = W p s := by
  unfold nat2; rw [dif_pos ⟨p.isLt, s.isLt⟩]

/-- Patch `s` of sample `p`: its squared error times its weight. -/
def rowTerm (A B : Fin 64 → Fin 2048 → Fin 512 → ℝ) (W : Fin 64 → Fin 2048 → ℝ) (p s : ℕ) : ℝ :=
  blockTerm (nat3 A) (nat3 B) (nat2 W) p s

theorem rowTerm_val (A B : Fin 64 → Fin 2048 → Fin 512 → ℝ) (W : Fin 64 → Fin 2048 → ℝ) (p : Fin 64) (s : Fin 2048) :
    rowTerm A B W p.val s.val = patchErr A B p s * W p s := by
  unfold rowTerm blockTerm patchErr
  rw [nat2_val]
  congr 1
  exact Finset.sum_congr rfl fun d _ => by rw [nat3_val, nat3_val]

/-- The zero column is zero. -/
theorem zeroCol_apply (y : S8x1.Idx) : (zeroCol (F := Ideal)) y = ((0 : ℝ) : EReal) :=
  Cert.Consts.ofBits_zero.trans EReal.coe_zero.symm

section Run

variable (c : Dev nD) (A B : Fin 64 → Fin 2048 → Fin 512 → ℝ) (W : Fin 64 → Fin 2048 → ℝ)
variable (hA : ∀ (p : Fin 64) (s : Fin 2048) (d : Fin 512), (V (F := Ideal) m c main_arg0 : S64x2048x512.Idx → EReal) (ix3 p s d) = ((A p s d : ℝ) : EReal))
variable (hB : ∀ (p : Fin 64) (s : Fin 2048) (d : Fin 512), (V (F := Ideal) m c main_arg1 : S64x2048x512.Idx → EReal) (ix3 p s d) = ((B p s d : ℝ) : EReal))
variable (hW : ∀ (p : Fin 64) (s : Fin 2048), (V (F := Ideal) m c main_v20 : S64x2048.Idx → EReal) (ix2 p s) = ((W p s : ℝ) : EReal))

include hA hB hW

/-- ONE POINT: over whatever the block held, point `t` adds, in row `r`, the weighted squared errors of its 512
    patches of sample `8·(t/4) + r`. -/
theorem point_add (t : Fin cfg0.N) (xo : Vec Ideal S8x1 .f32) (r : Fin 8) :
    pointVal (iblk m c 0 t) (iblk m c 1 t) (iblk m c 2 t) xo (ix2 r 0)
      = xo (ix2 r 0) + ((∑ s : Fin 512, rowTerm A B W (8 * (t.val / 4) + r.val) (512 * (t.val % 4) + s.val) : ℝ) : EReal) :=
  pointVal_apply (iblk m c 0 t) (iblk m c 1 t) (iblk m c 2 t) xo
    (fun r s d => nat3 A (8 * (t.val / 4) + r) (512 * (t.val % 4) + s) d)
    (fun r s d => nat3 B (8 * (t.val / 4) + r) (512 * (t.val % 4) + s) d)
    (fun r s => nat2 W (8 * (t.val / 4) + r) (512 * (t.val % 4) + s))
    (fun r s d => by rw [iblk0_apply, hA]; exact congrArg _ (nat3_val A ⟨_, _⟩ ⟨_, _⟩ d).symm)
    (fun r s d => by rw [iblk1_apply, hB]; exact congrArg _ (nat3_val B ⟨_, _⟩ ⟨_, _⟩ d).symm)
    (fun r s => by rw [iblk2_apply, hW]; exact congrArg _ (nat2_val W ⟨_, _⟩ ⟨_, _⟩).symm) r

/-- THE ACCUMULATION: after point `n` the result block holds, in row `r`, the weighted squared errors of the patches
    below `512·(n % 4 + 1)` of sample `8·(n / 4) + r`. -/
theorem outs_eq : ∀ (n : ℕ) (h : n < cfg0.N) (r : Fin 8),
    (outsAt0 m c n h : S8x1.Idx → EReal) (ix2 r 0)
      = ((∑ i ∈ Finset.range (512 * (n % 4 + 1)), rowTerm A B W (8 * (n / 4) + r.val) i : ℝ) : EReal) := by
  intro n
  induction n with
  | zero =>
    intro h r
    rw [outsAt0_A m c ⟨0, h⟩ rfl, out_A, point_add m c A B W hA hB hW ⟨0, h⟩ _ r, zeroCol_apply, ← EReal.coe_add]
    congr 1
    show (0 : ℝ) + ∑ s : Fin 512, rowTerm A B W (8 * (0 / 4) + r.val) (512 * (0 % 4) + s.val) = _
    rw [show 512 * (0 % 4 + 1) = 512 * (0 + 1) from rfl, Cert.LibBlockSum.sum_range_succ_block_fin]
    simp
  | succ n ih =>
    intro h r
    have hN : n + 1 < 32 := lt_of_lt_of_eq h N32
    by_cases h0 : (n + 1) % 4 = 0
    · rw [outsAt0_A m c ⟨n + 1, h⟩ h0, out_A, point_add m c A B W hA hB hW ⟨n + 1, h⟩ _ r, zeroCol_apply, ← EReal.coe_add]
      congr 1
      show (0 : ℝ) + ∑ s : Fin 512, rowTerm A B W (8 * ((n + 1) / 4) + r.val) (512 * ((n + 1) % 4) + s.val) = _
      rw [h0, Cert.LibBlockSum.sum_range_succ_block_fin]
      simp
    · rw [outsAt0_B m c ⟨n + 1, h⟩ h0, out_B, point_add m c A B W hA hB hW ⟨n + 1, h⟩ _ r]
      show (outsAt0 m c n _ : S8x1.Idx → EReal) (ix2 r 0) + _ = _
      rw [ih _ r, ← EReal.coe_add]
      congr 1
      show (∑ i ∈ Finset.range (512 * (n % 4 + 1)), rowTerm A B W (8 * (n / 4) + r.val) i)
          + ∑ s : Fin 512, rowTerm A B W (8 * ((n + 1) / 4) + r.val) (512 * ((n + 1) % 4) + s.val) = _
      have e1 : (n + 1) / 4 = n / 4 := by omega
      have e2 : n % 4 + 1 = (n + 1) % 4 := by omega
      rw [e1, e2, ← Cert.LibBlockSum.sum_range_succ_block_fin]

/-- Sample `p`'s weighted squared error over all 2048 patches. -/
def rowSum (A B : Fin 64 → Fin 2048 → Fin 512 → ℝ) (W : Fin 64 → Fin 2048 → ℝ) (p : ℕ) : ℝ :=
  ∑ i ∈ Finset.range 2048, rowTerm A B W p i

/-- The result array after the run. -/
abbrev final (A B : Fin 64 → Fin 2048 → Fin 512 → ℝ) (W : Fin 64 → Fin 2048 → ℝ) : S64x1.Idx → EReal :=
  fun j => ((rowSum A B W (j 0).val : ℝ) : EReal)

/-- WHAT IS WRITTEN BACK after the fourth point of a row of the grid is that row's block of `final`. -/
theorem flushed_eq (t : Fin cfg0.N) (hf : (cfg0.win 3).flush t = true) :
    (dats m 0 c).flushed 3 t = ((cfg0.win 3).blk t).view.read (Elt Ideal) (final A B W) := by
  have h3 : t.val % 4 = 3 := (flush0_3 t).mp hf
  obtain ⟨-, -, -, -, -, -, -, -, e0, e1⟩ := idx_facts t
  show (cfg0.win 3).cut (grid0.coords t) ((dats m 0 c).after 3 t) = _
  rw [after0_3]
  funext y
  obtain ⟨r, z, rfl⟩ : ∃ (r : Fin 8) (z : Fin 1), y = ix2 r z := ⟨y 0, y 1, eq_ix2 y⟩
  obtain rfl : z = 0 := Subsingleton.elim _ _
  show (outsAt0 m c t.val t.isLt : S8x1.Idx → EReal) (ix2 r 0) = final A B W (((cfg0.win 3).blk t).view.emb (ix2 r 0))
  rw [outs_eq m c A B W hA hB hW t.val t.isLt r, h3]
  show _ = ((rowSum A B W ((((cfg0.win 3).blk t).view.emb (ix2 r 0)) 0).val : ℝ) : EReal)
  have hv : ((((cfg0.win 3).blk t).view.emb (ix2 r 0)) 0).val = 8 * (t.val / 4) + r.val := by
    show win0_3.index t (0 : Fin 2) * 8 + 1 * r.val = _
    rw [e0]; omega
  rw [hv]
  rfl

/-- Every row of the array lies in the block written back after the fourth point of its row of the grid. -/
theorem cover (i : S64x1.Idx) : ∃ t : Fin cfg0.N, (cfg0.win 3).flush t = true ∧ i ∈ ((cfg0.win 3).blk t).view.set := by
  have hi0 : (i 0).val < 64 := (i 0).isLt
  have hi1 : (i 1).val < 1 := (i 1).isLt
  let t : Fin cfg0.N := ⟨4 * ((i 0).val / 8) + 3, by rw [N32]; omega⟩
  obtain ⟨-, -, -, -, -, -, -, -, e0, e1⟩ := idx_facts t
  have tv : t.val = 4 * ((i 0).val / 8) + 3 := rfl
  refine ⟨t, (flush0_3 t).mpr (by rw [tv]; omega), ?_⟩
  show i ∈ ((View.whole main_v21).slice (win0_3.rect t)).set
  rw [View.set_slice_whole, Rect.mem_set_unit]
  intro a
  match a with
  | ⟨0, _⟩ =>
    show win0_3.index t (0 : Fin 2) * 8 ≤ (i 0).val ∧ (i 0).val < win0_3.index t (0 : Fin 2) * 8 + 8
    rw [e0, tv]; omega
  | ⟨1, _⟩ =>
    show win0_3.index t (1 : Fin 2) * 1 ≤ (i 1).val ∧ (i 1).val < win0_3.index t (1 : Fin 2) * 1 + 1
    rw [e1]; omega

/-- THE RESULT ARRAY after the run. -/
theorem final_eq : (dats m 0 c).arrAt 3 cfg0.N = final A B W :=
  (dats m 0 c).arrAt_eq_of_cover 3 (final A B W) (fun t hf => flushed_eq m c A B W hA hB hW t hf) (cover m c A B W hA hB hW)

end Run

/-- Row `p` of the result array is `∑_s patchErr p s · W p s` when the staged arrays are real-valued. -/
theorem out_rows (c : Dev nD) (A B : Fin 64 → Fin 2048 → Fin 512 → ℝ) (W : Fin 64 → Fin 2048 → ℝ)
    (hA : ∀ (p : Fin 64) (s : Fin 2048) (d : Fin 512), (V (F := Ideal) m c main_arg0 : S64x2048x512.Idx → EReal) (ix3 p s d) = ((A p s d : ℝ) : EReal))
    (hB : ∀ (p : Fin 64) (s : Fin 2048) (d : Fin 512), (V (F := Ideal) m c main_arg1 : S64x2048x512.Idx → EReal) (ix3 p s d) = ((B p s d : ℝ) : EReal))
    (hW : ∀ (p : Fin 64) (s : Fin 2048), (V (F := Ideal) m c main_v20 : S64x2048.Idx → EReal) (ix2 p s) = ((W p s : ℝ) : EReal))
    (p : Fin 64) :
    ((dats (F := Ideal) m 0 c).arrAt 3 cfg0.N : S64x1.Idx → EReal) (ix2 p 0)
      = ((∑ s : Fin 2048, patchErr A B p s * W p s : ℝ) : EReal) := by
  rw [final_eq m c A B W hA hB hW]
  show ((rowSum A B W p.val : ℝ) : EReal) = _
  congr 1
  unfold rowSum
  rw [← Fin.sum_univ_eq_sum_range (fun i => rowTerm A B W p.val i) 2048]
  exact Finset.sum_congr rfl fun s _ => rowTerm_val A B W p s

end Cert.KernelIdeal.Value

end
-- ==== Proof.KernelTail.lean ====
/-
  The host operations after the pipeline: the 64 per-sample results are summed and the sum divided by 64.
-/
import proofs.«417517_j35751307772082_2_alg».proof.Proof.Gen.KernelIdeal.Frame
import proofs.«417517_j35751307772082_2_alg».proof.Proof.Spec
import proofs.«417517_j35751307772082_2_alg».proof.Proof.Consts
import Idealize.ShloMosaic.Lib.ValueIdx
import Idealize.ShloMosaic.Lib.Pipeline.Value
import Idealize.ShloMosaic.Lib.StableHlo.Run
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.HostValue

open Cert.KernelIdeal Cert.KernelIdeal.Gen Cert.MaskedMse

variable (m : (ℓ : Loc nD τ sig) → Buf (Elt Ideal) ℓ)

/-- The coercion of the reals into the extended reals passes through a finite sum. -/
theorem coe_finsum_rows {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- Summing a [64, 1] array of reals over both axes from zero and dividing by 64 gives the mean of its 64 entries. -/
theorem mean_of_rows (X : S64x1.Idx → EReal) (arr : Fin 64 → ℝ) (h : ∀ p : Fin 64, X (ix2 p 0) = ((arr p : ℝ) : EReal)) :
    Host.divf (F := Ideal) (Host.reduceAdd (F := Ideal) X (constant (F := Ideal) S_ .f32 0x00000000#32) reducesTo_S64x1_S_d0_1 h_S_)
        (constant (F := Ideal) S_ .f32 0x42800000#32)
      = fun _ => (((∑ p : Fin 64, arr p) / 64 : ℝ) : EReal) := by
  funext j
  show Ideal.div (Ideal.hostReduceAdd reducesTo_S64x1_S_d0_1 X (Ideal.ofBits .f32 0x00000000#32) j) (Ideal.ofBits .f32 0x42800000#32) = _
  rw [Ideal.hostReduceAdd_total reducesTo_S64x1_S_d0_1 (fun b => b.elim0), Cert.Consts.ofBits_zero, zero_add,
    Cert.Consts.ofBits_64, Ideal.div_coe (by norm_num), sum_idx2]
  have hs : (∑ a : Fin 64, ∑ b : Fin 1, X (ix2 a b)) = ((∑ p : Fin 64, arr p : ℝ) : EReal) := by
    rw [coe_finsum_rows]
    refine Finset.sum_congr rfl fun a _ => ?_
    rw [Fin.sum_univ_one]
    exact h a
  rw [hs, ← EReal.coe_mul]
  refine congrArg (fun r : ℝ => (r : EReal)) ?_
  ring

/-- If the pipeline's result array holds the reals `arr p`, the program's result is their batch mean. -/
theorem tail (c : Dev nD) (arr : Fin 64 → ℝ)
    (h : ∀ p : Fin 64, ((dats (F := Ideal) m 0 c).arrAt 3 cfg0.N : S64x1.Idx → EReal) (ix2 p 0) = ((arr p : ℝ) : EReal)) :
    (Pipeline.afterTail₀ cfgs (dats (F := Ideal) m) 0 (V0 m) [hostOps1] c main_v23 : S_.Idx → EReal)
      = fun _ => (((∑ p : Fin 64, arr p) / 64 : ℝ) : EReal) := by
  unfold Pipeline.afterTail₀
  show StableHlo.after hostOps1 _ (Proc.devRef .tc main_v23) = _
  after_results
  have hW : Pipeline.withArrays (cfgs 0).spec c (V0 m c) (fun w => (dats (F := Ideal) m 0 c).arrAt w (cfgs 0).N) (Proc.devRef .tc main_v21)
      = (dats (F := Ideal) m 0 c).arrAt 3 cfg0.N :=
    Pipeline.withArrays_arr spec0 launch0.win.arr_inj c _ _ 3
  rw [hW]
  exact mean_of_rows _ arr h

end Cert.KernelIdeal.HostValue

end
-- ==== Proof.RefValue.lean ====
/-
  The reference program's result, read as a real number: on real-valued arrays and in-range patch lists it is the
  gathered arrangement of the loss.

  The reference gathers the listed patches of the prediction and of the target (`take_along_axis`), squares the
  difference, averages per sample over the listed patches' features, averages over the batch, and adds the masked
  mean to the scaled unmasked one. Read one element at a time:

  * a list entry `n < 2048` is not negative, so the wrap-around `select` keeps it, and the range test
    `0 ≤ n ≤ 2047` holds; the `and` over the length-one index axis of tests that are all true is true, so
    the outer `select` never takes the NaN fill;
  * the gather at `(p, i, d)` reads the operand at `(p, entry (p, i), d)`: the batch axis is carried over, the
    patch axis is the clamped start index (no clamping happens for an in-range entry), the feature axis is the
    offset;
  * a float sum over the two trailing axes of a `[P, R, D]` array is, at sample `p`, the double sum over
    `(i, d)`; exact arithmetic on real numbers stays real (`↑a − ↑b = ↑(a − b)`, products, finite sums,
    division by a nonzero real), so every stage is the coercion of a real number and the last step is an identity
    of real numbers.
-/
import proofs.«417517_j35751307772082_2_alg».proof.Proof.RefRead
import proofs.«417517_j35751307772082_2_alg».proof.Proof.Spec
import proofs.«417517_j35751307772082_2_alg».proof.Proof.Consts
import Idealize.ShloMosaic.Lib.ValueIdx
import Idealize.ShloMosaic.Lib.StableHlo.Predicate
import Idealize.ShloMosaic.PureOps.Ideal.Laws

noncomputable section

namespace Cert.ReferenceIdeal.RefValue

open Idealize.ShloMosaic Idealize.ShloMosaic.ValueIdx Cert.ReferenceIdeal Cert.ReferenceIdeal.ReadP Cert.MaskedMse
open Idealize.ShloMosaic.StableHlo.Predicate

/-! ## Words: an in-range list entry passes the wrap and the range test -/

/-- A word written from a number below 2048 has that number as its value. -/
theorem toNat_ofNat_lt (n : ℕ) (hn : n < 2048) : (BitVec.ofNat 32 n).toNat = n := by
  rw [BitVec.toNat_ofNat]; exact Nat.mod_eq_of_lt (by omega)

/-- An entry below 2048 is not negative: the wrap-around (`+ 2048` on a negative entry) leaves it alone. -/
theorem wrap_keep (n : ℕ) (hn : n < 2048) :
    Scalar.select (IntOp.cmpi .slt (BitVec.ofNat 32 n) 0#32) (IntOp.addi (BitVec.ofNat 32 n) 2048#32) (BitVec.ofNat 32 n)
      = BitVec.ofNat 32 n := by
  have hlt : ¬ IntOp.cmpi .slt (BitVec.ofNat 32 n) 0#32 = 1#1 := by
    rw [slt_iff_toNat (by rw [toNat_ofNat_lt n hn]; omega) (by decide)]
    show ¬ _ < 0
    omega
  rw [eq_zero_of_ne_one hlt, select_zero]

/-- An entry below 2048 passes both halves of the range test `0 ≤ n ≤ 2047`. -/
theorem in_range_bits (n : ℕ) (hn : n < 2048) :
    IntOp.andi (IntOp.cmpi .sge (BitVec.ofNat 32 n) 0#32) (IntOp.cmpi .sle (BitVec.ofNat 32 n) 2047#32) = 1#1 := by
  have h1 : IntOp.cmpi .sge (BitVec.ofNat 32 n) 0#32 = 1#1 :=
    (sge_iff_toNat (by rw [toNat_ofNat_lt n hn]; omega) (by decide)).2 (Nat.zero_le _)
  have h2 : IntOp.cmpi .sle (BitVec.ofNat 32 n) 2047#32 = 1#1 :=
    (sle_iff_toNat (by rw [toNat_ofNat_lt n hn]; omega) (by decide)).2 (by
      rw [toNat_ofNat_lt n hn]; show n ≤ 2047; omega)
  rw [h1, h2]; rfl

/-- The signed reading of such an entry, as the gather clamps it, is the number itself. -/
theorem toInt_toNat_ofNat (n : ℕ) (hn : n < 2048) : (BitVec.ofNat 32 n).toInt.toNat = n := by
  rw [toInt_ofNat_small n (by omega), Int.toNat_natCast]

/-- An `and` over any set of bits that are all one, started at one, is one. -/
theorem fold_andi_one {ι : Type} (S : Finset ι) (f : ι → BitVec 1) (hf : ∀ i, f i = 1#1) :
    S.fold IntOp.andi 1#1 f = 1#1 := by
  induction S using Finset.cons_induction with
  | empty => rfl
  | cons a S ha ih => rw [Finset.fold_cons, ih, hf a]; rfl

/-! ## Real numbers inside the extended reals -/

/-- The coercion goes through a finite sum. -/
theorem coe_sum {ι : Type} (S : Finset ι) (f : ι → ℝ) :
    ∑ i ∈ S, ((f i : ℝ) : EReal) = ((∑ i ∈ S, f i : ℝ) : EReal) := by
  classical
  induction S using Finset.induction_on with
  | empty => simp
  | insert a S ha ih => rw [Finset.sum_insert ha, Finset.sum_insert ha, ih, EReal.coe_add]

/-- The exact quotient of two reals, the divisor not zero, is the real quotient. -/
theorem div_real (a b : ℝ) (hb : b ≠ 0) : Ideal.div (a : EReal) (b : EReal) = ((a / b : ℝ) : EReal) := by
  rw [Ideal.div_coe hb, ← EReal.coe_mul, mul_one_div]

/-- A sum over the indices of a one-axis shape is the sum over the axis's coordinates. -/
theorem sum_ix1 {M : Type*} [AddCommMonoid M] {n : Nat} (f : (⟨1, ![n]⟩ : Shape).Idx → M) :
    ∑ j, f j = ∑ p : Fin n, f (ix1 p) := by
  let e : (⟨1, ![n]⟩ : Shape).Idx ≃ Fin n :=
    { toFun := fun j => j 0, invFun := fun p => ix1 p, left_inv := fun j => (eq_ix1 j).symm, right_inv := fun _ => rfl }
  rw [← Equiv.sum_comp e.symm f]
  rfl

/-! ## A gather of whole rows, one list of rows per sample, read at an index

`take_along_axis` along the patch axis lowers to a gather of an operand `[P, N, D]` at start indices `[P, R, 1]`
into a result `[P, R, D]`: the sample axis is a batching axis of both, the patch axis is collapsed and is the one
the start index names, the feature axis is the offset axis with a full-length slice. -/

section Rows
variable {α : Type}

/-- Those dimension numbers. -/
abbrev rowsDims (P N D R : Nat)
    (wf : GatherDims.WF ⟨3, ![P, N, D]⟩ ⟨3, ![P, R, 1]⟩ ⟨3, ![P, R, D]⟩ [2] [1] [0] [1] [0] 2 ![1, 1, D]) :
    GatherDims ⟨3, ![P, N, D]⟩ ⟨3, ![P, R, 1]⟩ ⟨3, ![P, R, D]⟩ where
  offsetDims := [2]
  collapsedSliceDims := [1]
  operandBatchingDims := [0]
  startIndicesBatchingDims := [0]
  startIndexMap := [1]
  indexVectorDim := 2
  sliceSizes := ![1, 1, D]
  wf := wf

theorem fin3_10 : (1 : Fin 3) ≠ 0 := by decide
theorem fin3_20 : (2 : Fin 3) ≠ 0 := by decide
theorem fin3_21 : (2 : Fin 3) ≠ 1 := by decide

variable {P N D R w : Nat}
    (wf : GatherDims.WF ⟨3, ![P, N, D]⟩ ⟨3, ![P, R, 1]⟩ ⟨3, ![P, R, D]⟩ [2] [1] [0] [1] [0] 2 ![1, 1, D])
    (idx : IVec ⟨3, ![P, R, 1]⟩ w) (p : Fin P) (i : Fin R) (c : Fin D)

/-- On the sample axis the operand index is the result's sample: a batching axis has no start and no offset. -/
theorem rows_coord0 :
    (rowsDims P N D R wf).start (ix3 p i c) idx (0 : Fin 3) + (rowsDims P N D R wf).batchCoord (ix3 p i c) (0 : Fin 3)
      + (rowsDims P N D R wf).offCoord (ix3 p i c) (0 : Fin 3) = p.val := by
  have hb : (0 : Fin 3) ∈ (rowsDims P N D R wf).operandBatchingDims := List.mem_singleton.mpr rfl
  rw [GatherDims.start_batching _ _ _ _ hb,
    GatherDims.offCoord_eq_zero _ _ _ (fun h => ((GatherDims.mem_sKept _ _).mp h).2 hb)]
  simp only [Nat.zero_add, Nat.add_zero]
  unfold GatherDims.batchCoord
  rw [dif_pos hb]
  rfl

/-- On the patch axis it is the start index at `(p, i, 0)`, read signed; a start inside the operand is not clamped. -/
theorem rows_coord1 (s : Fin N) (hs : (idx (ix3 p i (0 : Fin 1))).toInt.toNat = s.val) :
    (rowsDims P N D R wf).start (ix3 p i c) idx (1 : Fin 3) + (rowsDims P N D R wf).batchCoord (ix3 p i c) (1 : Fin 3)
      + (rowsDims P N D R wf).offCoord (ix3 p i c) (1 : Fin 3) = s.val := by
  have hm : (1 : Fin 3) ∈ (rowsDims P N D R wf).startIndexMap := List.mem_singleton.mpr rfl
  have hc : (1 : Fin 3) ∈ (rowsDims P N D R wf).collapsedSliceDims := List.mem_singleton.mpr rfl
  rw [GatherDims.batchCoord_eq_zero _ _ _ (fun h => fin3_10 (List.mem_singleton.mp h)),
    GatherDims.offCoord_eq_zero _ _ _ (fun h => ((GatherDims.mem_sKept _ _).mp h).1 hc)]
  simp only [Nat.add_zero]
  unfold GatherDims.start
  rw [dif_pos hm]
  have hsi : (rowsDims P N D R wf).siIdx (ix3 p i c)
      ⟨List.idxOf (1 : Fin 3) (rowsDims P N D R wf).startIndexMap, List.idxOf_lt_length_iff.2 hm⟩
        = ix3 p i (0 : Fin 1) := by
    funext b; refine Fin.ext ?_
    match b with
    | ⟨0, _⟩ => rfl
    | ⟨1, _⟩ => rfl
    | ⟨2, _⟩ => rfl
  rw [hsi, hs]
  have := s.isLt
  show min s.val (N - 1) = s.val
  omega

/-- On the feature axis it is the result's feature: the offset coordinate, with no start. -/
theorem rows_coord2 :
    (rowsDims P N D R wf).start (ix3 p i c) idx (2 : Fin 3) + (rowsDims P N D R wf).batchCoord (ix3 p i c) (2 : Fin 3)
      + (rowsDims P N D R wf).offCoord (ix3 p i c) (2 : Fin 3) = c.val := by
  rw [GatherDims.batchCoord_eq_zero _ _ _ (fun h => fin3_20 (List.mem_singleton.mp h))]
  unfold GatherDims.start
  rw [dif_neg (fun h => fin3_21 (List.mem_singleton.mp h))]
  simp only [Nat.zero_add, Nat.add_zero]
  unfold GatherDims.offCoord
  rw [dif_pos ((GatherDims.mem_sKept _ _).mpr ⟨fun h => fin3_21 (List.mem_singleton.mp h),
    fun h => fin3_20 (List.mem_singleton.mp h)⟩)]
  rfl

/-- THE GATHER READ AT `(p, i, c)`: the operand at `(p, s, c)`, `s` the in-range start index at `(p, i, 0)`. -/
theorem gather_rows_apply (x : (⟨3, ![P, N, D]⟩ : Shape).Idx → α) (s : Fin N)
    (hs : (idx (ix3 p i (0 : Fin 1))).toInt.toNat = s.val) :
    Host.gather (rowsDims P N D R wf) x idx (ix3 p i c) = x (ix3 p s c) := by
  unfold Host.gather
  refine congrArg x (funext fun a => Fin.ext ?_)
  match a with
  | ⟨0, _⟩ => exact rows_coord0 wf idx p i c
  | ⟨1, _⟩ => exact rows_coord1 wf idx p i c s hs
  | ⟨2, _⟩ => exact rows_coord2 wf idx p i c

end Rows

/-! ## A float sum over the two trailing axes, read at a sample -/

/-- The exact sum of a `[P, R, D]` array over its axes 1 and 2 is, at sample `p`, the initial value plus the double
    sum over `(i, c)`: the indices that drop to `p` are exactly the `(p, i, c)`. -/
theorem hostReduceAdd_rows {P R D : Nat} (h : (⟨3, ![P, R, D]⟩ : Shape).ReducesTo [1, 2] ⟨1, ![P]⟩)
    (x : (⟨3, ![P, R, D]⟩ : Shape).Idx → EReal) (init : EReal) (p : Fin P) :
    Ideal.hostReduceAdd h x init (ix1 p) = init + ∑ i : Fin R, ∑ c : Fin D, x (ix3 p i c) := by
  classical
  unfold Ideal.hostReduceAdd
  refine congrArg (init + ·) ?_
  have hdrop : ∀ j : (⟨3, ![P, R, D]⟩ : Shape).Idx, h.drop j = ix1 p ↔ j 0 = p := by
    intro j
    have hv : (h.drop j 0 : Nat) = j 0 := Shape.ReducesTo.drop_apply_val h j 0
    constructor
    · intro e; rw [e] at hv; exact Fin.ext hv.symm
    · intro e; funext b; have hb : b = 0 := Subsingleton.elim _ _; subst hb
      exact Fin.ext (hv.trans (congrArg Fin.val e))
  have hback : ∀ j : (⟨3, ![P, R, D]⟩ : Shape).Idx, j 0 = p → ix3 p (j 1) (j 2) = j := fun j h0 => by
    funext b; match b with
    | ⟨0, _⟩ => exact h0.symm
    | ⟨1, _⟩ => rfl
    | ⟨2, _⟩ => rfl
  rw [← Finset.sum_product' (Finset.univ : Finset (Fin R)) (Finset.univ : Finset (Fin D)) (fun i c => x (ix3 p i c))]
  refine Finset.sum_bij' (fun j _ => ((j 1, j 2) : Fin R × Fin D)) (fun ic _ => ix3 p ic.1 ic.2)
    (fun _ _ => Finset.mem_product.2 ⟨Finset.mem_univ _, Finset.mem_univ _⟩)
    (fun ic _ => Finset.mem_filter.2 ⟨Finset.mem_univ _, (hdrop _).2 rfl⟩)
    (fun j hj => hback j ((hdrop j).1 (Finset.mem_filter.1 hj).2)) (fun _ _ => rfl) ?_
  intro j hj
  exact (congrArg x (hback j ((hdrop j).1 (Finset.mem_filter.1 hj).2))).symm

variable [Cert.ReferenceIdeal.Facts]

/-! ## The four gathers -/

/-! ### The masked gather of the prediction -/

section Call0
variable (x2 : (⟨S64x1536, .i32⟩ : BufTy).Contents (Elt Ideal)) (mi : Fin 64 → Fin 1536 → Fin 2048)

/-- The start index at `(p, i, 0)` is the list entry: the wrap keeps a non-negative entry. -/
theorem call0_entry (hmi : ∀ (p : Fin 64) (i : Fin 1536), x2 (ix2 p i) = BitVec.ofNat 32 (mi p i).val)
    (p : Fin 64) (i : Fin 1536) (z : Fin 1) :
    val_main_call0_v4 (F := Ideal) x2 (ix3 p i z) = BitVec.ofNat 32 (mi p i).val := by
  have hidx : idx_main_v0 (ix3 p i z) = ix2 p i := funext fun a => match a with | ⟨0, _⟩ => rfl | ⟨1, _⟩ => rfl
  have h0 : val_main_v0 (F := Ideal) x2 (ix3 p i z) = BitVec.ofNat 32 (mi p i).val :=
    (val_main_v0_apply x2 (ix3 p i z)).trans ((congrArg x2 hidx).trans (hmi p i))
  rw [val_main_call0_v4_apply, val_main_call0_v1_apply, val_main_call0_v3_apply, h0, val_main_call0_v0_apply,
    val_main_call0_c_apply, val_main_call0_v2_apply, val_main_call0_c_0_apply]
  exact wrap_keep _ (mi p i).isLt

/-- The range test holds at every list position, so its `and` over the index axis is true everywhere. -/
theorem call0_mask (hmi : ∀ (p : Fin 64) (i : Fin 1536), x2 (ix2 p i) = BitVec.ofNat 32 (mi p i).val)
    (k : S64x1536.Idx) : val_main_call0_v11 (F := Ideal) x2 k = 1#1 := by
  have hall : ∀ j : S64x1536x1.Idx, val_main_call0_v10 (F := Ideal) x2 j = 1#1 := by
    intro j
    obtain ⟨p, i, z, rfl⟩ : ∃ (p : Fin 64) (i : Fin 1536) (z : Fin 1), j = ix3 p i z := ⟨j 0, j 1, j 2, eq_ix3 j⟩
    rw [val_main_call0_v10_apply, val_main_call0_v6_apply, val_main_call0_v9_apply, call0_entry x2 mi hmi,
      val_main_call0_v5_apply, val_main_call0_c_2_apply, val_main_call0_v8_apply, val_main_call0_v7_apply,
      val_main_call0_c_1_apply]
    exact in_range_bits _ (mi p i).isLt
  unfold val_main_call0_v11
  refine (Host.reduce_eq_fold _ _ _ _ _ _).trans ?_
  exact fold_andi_one _ _ hall

/-- The gathered array at `(p, i, c)` is the operand at the listed patch: never the fill. -/
theorem call0_read (x0 : (⟨S64x2048x512, .f32⟩ : BufTy).Contents (Elt Ideal)) (T : Fin 64 → Fin 2048 → Fin 512 → ℝ)
    (hT : ∀ (p : Fin 64) (s : Fin 2048) (d : Fin 512), x0 (ix3 p s d) = ((T p s d : ℝ) : EReal))
    (hmi : ∀ (p : Fin 64) (i : Fin 1536), x2 (ix2 p i) = BitVec.ofNat 32 (mi p i).val)
    (p : Fin 64) (i : Fin 1536) (c : Fin 512) :
    val_main_v1 (F := Ideal) x0 x2 (ix3 p i c) = ((T p (mi p i) c : ℝ) : EReal) := by
  rw [val_main_v1_apply, val_main_call0_v13_apply, call0_mask x2 mi hmi, select_one]
  have hs : ((val_main_call0_v4 (F := Ideal) x2) (ix3 p i (0 : Fin 1))).toInt.toNat = (mi p i).val := by
    rw [call0_entry x2 mi hmi]; exact toInt_toNat_ofNat _ (mi p i).isLt
  exact (gather_rows_apply (gather_S64x2048x512_S64x1536x1_S64x1536x512_2_1_0_0_1_2_11512).wf
    (val_main_call0_v4 (F := Ideal) x2) p i c x0 (mi p i) hs).trans (hT p (mi p i) c)

end Call0

/-! ### The masked gather of the target -/

section Call1
variable (x2 : (⟨S64x1536, .i32⟩ : BufTy).Contents (Elt Ideal)) (mi : Fin 64 → Fin 1536 → Fin 2048)

/-- The start index at `(p, i, 0)` is the list entry: the wrap keeps a non-negative entry. -/
theorem call1_entry (hmi : ∀ (p : Fin 64) (i : Fin 1536), x2 (ix2 p i) = BitVec.ofNat 32 (mi p i).val)
    (p : Fin 64) (i : Fin 1536) (z : Fin 1) :
    val_main_call1_v4 (F := Ideal) x2 (ix3 p i z) = BitVec.ofNat 32 (mi p i).val := by
  have hidx : idx_main_v2 (ix3 p i z) = ix2 p i := funext fun a => match a with | ⟨0, _⟩ => rfl | ⟨1, _⟩ => rfl
  have h0 : val_main_v2 (F := Ideal) x2 (ix3 p i z) = BitVec.ofNat 32 (mi p i).val :=
    (val_main_v2_apply x2 (ix3 p i z)).trans ((congrArg x2 hidx).trans (hmi p i))
  rw [val_main_call1_v4_apply, val_main_call1_v1_apply, val_main_call1_v3_apply, h0, val_main_call1_v0_apply,
    val_main_call1_c_apply, val_main_call1_v2_apply, val_main_call1_c_0_apply]
  exact wrap_keep _ (mi p i).isLt

/-- The range test holds at every list position, so its `and` over the index axis is true everywhere. -/
theorem call1_mask (hmi : ∀ (p : Fin 64) (i : Fin 1536), x2 (ix2 p i) = BitVec.ofNat 32 (mi p i).val)
    (k : S64x1536.Idx) : val_main_call1_v11 (F := Ideal) x2 k = 1#1 := by
  have hall : ∀ j : S64x1536x1.Idx, val_main_call1_v10 (F := Ideal) x2 j = 1#1 := by
    intro j
    obtain ⟨p, i, z, rfl⟩ : ∃ (p : Fin 64) (i : Fin 1536) (z : Fin 1), j = ix3 p i z := ⟨j 0, j 1, j 2, eq_ix3 j⟩
    rw [val_main_call1_v10_apply, val_main_call1_v6_apply, val_main_call1_v9_apply, call1_entry x2 mi hmi,
      val_main_call1_v5_apply, val_main_call1_c_2_apply, val_main_call1_v8_apply, val_main_call1_v7_apply,
      val_main_call1_c_1_apply]
    exact in_range_bits _ (mi p i).isLt
  unfold val_main_call1_v11
  refine (Host.reduce_eq_fold _ _ _ _ _ _).trans ?_
  exact fold_andi_one _ _ hall

/-- The gathered array at `(p, i, c)` is the operand at the listed patch: never the fill. -/
theorem call1_read (x1 : (⟨S64x2048x512, .f32⟩ : BufTy).Contents (Elt Ideal)) (T : Fin 64 → Fin 2048 → Fin 512 → ℝ)
    (hT : ∀ (p : Fin 64) (s : Fin 2048) (d : Fin 512), x1 (ix3 p s d) = ((T p s d : ℝ) : EReal))
    (hmi : ∀ (p : Fin 64) (i : Fin 1536), x2 (ix2 p i) = BitVec.ofNat 32 (mi p i).val)
    (p : Fin 64) (i : Fin 1536) (c : Fin 512) :
    val_main_v3 (F := Ideal) x1 x2 (ix3 p i c) = ((T p (mi p i) c : ℝ) : EReal) := by
  rw [val_main_v3_apply, val_main_call1_v13_apply, call1_mask x2 mi hmi, select_one]
  have hs : ((val_main_call1_v4 (F := Ideal) x2) (ix3 p i (0 : Fin 1))).toInt.toNat = (mi p i).val := by
    rw [call1_entry x2 mi hmi]; exact toInt_toNat_ofNat _ (mi p i).isLt
  exact (gather_rows_apply (gather_S64x2048x512_S64x1536x1_S64x1536x512_2_1_0_0_1_2_11512).wf
    (val_main_call1_v4 (F := Ideal) x2) p i c x1 (mi p i) hs).trans (hT p (mi p i) c)

end Call1

/-! ### The unmasked gather of the prediction -/

section Call2
variable (x3 : (⟨S64x512, .i32⟩ : BufTy).Contents (Elt Ideal)) (ui : Fin 64 → Fin 512 → Fin 2048)

/-- The start index at `(p, i, 0)` is the list entry: the wrap keeps a non-negative entry. -/
theorem call2_entry (hui : ∀ (p : Fin 64) (i : Fin 512), x3 (ix2 p i) = BitVec.ofNat 32 (ui p i).val)
    (p : Fin 64) (i : Fin 512) (z : Fin 1) :
    val_main_call2_v4 (F := Ideal) x3 (ix3 p i z) = BitVec.ofNat 32 (ui p i).val := by
  have hidx : idx_main_v9 (ix3 p i z) = ix2 p i := funext fun a => match a with | ⟨0, _⟩ => rfl | ⟨1, _⟩ => rfl
  have h0 : val_main_v9 (F := Ideal) x3 (ix3 p i z) = BitVec.ofNat 32 (ui p i).val :=
    (val_main_v9_apply x3 (ix3 p i z)).trans ((congrArg x3 hidx).trans (hui p i))
  rw [val_main_call2_v4_apply, val_main_call2_v1_apply, val_main_call2_v3_apply, h0, val_main_call2_v0_apply,
    val_main_call2_c_apply, val_main_call2_v2_apply, val_main_call2_c_0_apply]
  exact wrap_keep _ (ui p i).isLt

/-- The range test holds at every list position, so its `and` over the index axis is true everywhere. -/
theorem call2_mask (hui : ∀ (p : Fin 64) (i : Fin 512), x3 (ix2 p i) = BitVec.ofNat 32 (ui p i).val)
    (k : S64x512.Idx) : val_main_call2_v11 (F := Ideal) x3 k = 1#1 := by
  have hall : ∀ j : S64x512x1.Idx, val_main_call2_v10 (F := Ideal) x3 j = 1#1 := by
    intro j
    obtain ⟨p, i, z, rfl⟩ : ∃ (p : Fin 64) (i : Fin 512) (z : Fin 1), j = ix3 p i z := ⟨j 0, j 1, j 2, eq_ix3 j⟩
    rw [val_main_call2_v10_apply, val_main_call2_v6_apply, val_main_call2_v9_apply, call2_entry x3 ui hui,
      val_main_call2_v5_apply, val_main_call2_c_2_apply, val_main_call2_v8_apply, val_main_call2_v7_apply,
      val_main_call2_c_1_apply]
    exact in_range_bits _ (ui p i).isLt
  unfold val_main_call2_v11
  refine (Host.reduce_eq_fold _ _ _ _ _ _).trans ?_
  exact fold_andi_one _ _ hall

/-- The gathered array at `(p, i, c)` is the operand at the listed patch: never the fill. -/
theorem call2_read (x0 : (⟨S64x2048x512, .f32⟩ : BufTy).Contents (Elt Ideal)) (T : Fin 64 → Fin 2048 → Fin 512 → ℝ)
    (hT : ∀ (p : Fin 64) (s : Fin 2048) (d : Fin 512), x0 (ix3 p s d) = ((T p s d : ℝ) : EReal))
    (hui : ∀ (p : Fin 64) (i : Fin 512), x3 (ix2 p i) = BitVec.ofNat 32 (ui p i).val)
    (p : Fin 64) (i : Fin 512) (c : Fin 512) :
    val_main_v10 (F := Ideal) x0 x3 (ix3 p i c) = ((T p (ui p i) c : ℝ) : EReal) := by
  rw [val_main_v10_apply, val_main_call2_v13_apply, call2_mask x3 ui hui, select_one]
  have hs : ((val_main_call2_v4 (F := Ideal) x3) (ix3 p i (0 : Fin 1))).toInt.toNat = (ui p i).val := by
    rw [call2_entry x3 ui hui]; exact toInt_toNat_ofNat _ (ui p i).isLt
  exact (gather_rows_apply (gather_S64x2048x512_S64x512x1_S64x512x512_2_1_0_0_1_2_11512).wf
    (val_main_call2_v4 (F := Ideal) x3) p i c x0 (ui p i) hs).trans (hT p (ui p i) c)

end Call2

/-! ### The unmasked gather of the target -/

section Call3
variable (x3 : (⟨S64x512, .i32⟩ : BufTy).Contents (Elt Ideal)) (ui : Fin 64 → Fin 512 → Fin 2048)

/-- The start index at `(p, i, 0)` is the list entry: the wrap keeps a non-negative entry. -/
theorem call3_entry (hui : ∀ (p : Fin 64) (i : Fin 512), x3 (ix2 p i) = BitVec.ofNat 32 (ui p i).val)
    (p : Fin 64) (i : Fin 512) (z : Fin 1) :
    val_main_call3_v4 (F := Ideal) x3 (ix3 p i z) = BitVec.ofNat 32 (ui p i).val := by
  have hidx : idx_main_v11 (ix3 p i z) = ix2 p i := funext fun a => match a with | ⟨0, _⟩ => rfl | ⟨1, _⟩ => rfl
  have h0 : val_main_v11 (F := Ideal) x3 (ix3 p i z) = BitVec.ofNat 32 (ui p i).val :=
    (val_main_v11_apply x3 (ix3 p i z)).trans ((congrArg x3 hidx).trans (hui p i))
  rw [val_main_call3_v4_apply, val_main_call3_v1_apply, val_main_call3_v3_apply, h0, val_main_call3_v0_apply,
    val_main_call3_c_apply, val_main_call3_v2_apply, val_main_call3_c_0_apply]
  exact wrap_keep _ (ui p i).isLt

/-- The range test holds at every list position, so its `and` over the index axis is true everywhere. -/
theorem call3_mask (hui : ∀ (p : Fin 64) (i : Fin 512), x3 (ix2 p i) = BitVec.ofNat 32 (ui p i).val)
    (k : S64x512.Idx) : val_main_call3_v11 (F := Ideal) x3 k = 1#1 := by
  have hall : ∀ j : S64x512x1.Idx, val_main_call3_v10 (F := Ideal) x3 j = 1#1 := by
    intro j
    obtain ⟨p, i, z, rfl⟩ : ∃ (p : Fin 64) (i : Fin 512) (z : Fin 1), j = ix3 p i z := ⟨j 0, j 1, j 2, eq_ix3 j⟩
    rw [val_main_call3_v10_apply, val_main_call3_v6_apply, val_main_call3_v9_apply, call3_entry x3 ui hui,
      val_main_call3_v5_apply, val_main_call3_c_2_apply, val_main_call3_v8_apply, val_main_call3_v7_apply,
      val_main_call3_c_1_apply]
    exact in_range_bits _ (ui p i).isLt
  unfold val_main_call3_v11
  refine (Host.reduce_eq_fold _ _ _ _ _ _).trans ?_
  exact fold_andi_one _ _ hall

/-- The gathered array at `(p, i, c)` is the operand at the listed patch: never the fill. -/
theorem call3_read (x1 : (⟨S64x2048x512, .f32⟩ : BufTy).Contents (Elt Ideal)) (T : Fin 64 → Fin 2048 → Fin 512 → ℝ)
    (hT : ∀ (p : Fin 64) (s : Fin 2048) (d : Fin 512), x1 (ix3 p s d) = ((T p s d : ℝ) : EReal))
    (hui : ∀ (p : Fin 64) (i : Fin 512), x3 (ix2 p i) = BitVec.ofNat 32 (ui p i).val)
    (p : Fin 64) (i : Fin 512) (c : Fin 512) :
    val_main_v12 (F := Ideal) x1 x3 (ix3 p i c) = ((T p (ui p i) c : ℝ) : EReal) := by
  rw [val_main_v12_apply, val_main_call3_v13_apply, call3_mask x3 ui hui, select_one]
  have hs : ((val_main_call3_v4 (F := Ideal) x3) (ix3 p i (0 : Fin 1))).toInt.toNat = (ui p i).val := by
    rw [call3_entry x3 ui hui]; exact toInt_toNat_ofNat _ (ui p i).isLt
  exact (gather_rows_apply (gather_S64x2048x512_S64x512x1_S64x512x512_2_1_0_0_1_2_11512).wf
    (val_main_call3_v4 (F := Ideal) x3) p i c x1 (ui p i) hs).trans (hT p (ui p i) c)

end Call3

/-! ## The masked mean -/

section Masked
variable (x0 x1 : (⟨S64x2048x512, .f32⟩ : BufTy).Contents (Elt Ideal)) (x2 : (⟨S64x1536, .i32⟩ : BufTy).Contents (Elt Ideal))
  (A B : Fin 64 → Fin 2048 → Fin 512 → ℝ) (mi : Fin 64 → Fin 1536 → Fin 2048)

/-- The squared difference at `(p, i, c)` is the real one, at the listed patch. -/
theorem masked_sq (hA : ∀ (p : Fin 64) (s : Fin 2048) (d : Fin 512), x0 (ix3 p s d) = ((A p s d : ℝ) : EReal))
    (hB : ∀ (p : Fin 64) (s : Fin 2048) (d : Fin 512), x1 (ix3 p s d) = ((B p s d : ℝ) : EReal))
    (hmi : ∀ (p : Fin 64) (i : Fin 1536), x2 (ix2 p i) = BitVec.ofNat 32 (mi p i).val)
    (p : Fin 64) (i : Fin 1536) (c : Fin 512) :
    val_main_v5 (F := Ideal) x0 x1 x2 (ix3 p i c)
      = (((A p (mi p i) c - B p (mi p i) c) * (A p (mi p i) c - B p (mi p i) c) : ℝ) : EReal) := by
  rw [val_main_v5_apply, val_main_v4_apply, call0_read x2 mi x0 A hA hmi, call1_read x2 mi x1 B hB hmi,
    Ideal.subf_def, Ideal.mulf_def, ← EReal.coe_sub, ← EReal.coe_mul]

/-- One sample's mean: the sum over the listed patches and their features is the sum of the patches' errors. -/
theorem masked_sample (hA : ∀ (p : Fin 64) (s : Fin 2048) (d : Fin 512), x0 (ix3 p s d) = ((A p s d : ℝ) : EReal))
    (hB : ∀ (p : Fin 64) (s : Fin 2048) (d : Fin 512), x1 (ix3 p s d) = ((B p s d : ℝ) : EReal))
    (hmi : ∀ (p : Fin 64) (i : Fin 1536), x2 (ix2 p i) = BitVec.ofNat 32 (mi p i).val) (p : Fin 64) :
    val_main_v8 (F := Ideal) x0 x1 x2 (ix1 p)
      = (((∑ i : Fin 1536, patchErr A B p (mi p i)) / 786432 : ℝ) : EReal) := by
  have h6 : val_main_v6 (F := Ideal) x0 x1 x2 (ix1 p) = ((∑ i : Fin 1536, patchErr A B p (mi p i) : ℝ) : EReal) := by
    unfold val_main_v6
    refine (hostReduceAdd_rows _ (val_main_v5 (F := Ideal) x0 x1 x2) _ p).trans ?_
    rw [val_main_cst_apply, Ideal.ofBits_def, Cert.Consts.ofBits_zero, zero_add,
      Finset.sum_congr rfl (fun i _ => Finset.sum_congr rfl (fun c _ => masked_sq x0 x1 x2 A B mi hA hB hmi p i c))]
    simp only [coe_sum]
    rfl
  rw [val_main_v8_apply, h6, val_main_v7_apply, val_main_cst_0_apply, Ideal.hostDivf_def, Ideal.ofBits_def, Cert.Consts.ofBits_786432]
  exact div_real _ _ (by norm_num)

/-- The batch mean of the samples' means. -/
theorem masked_mean (hA : ∀ (p : Fin 64) (s : Fin 2048) (d : Fin 512), x0 (ix3 p s d) = ((A p s d : ℝ) : EReal))
    (hB : ∀ (p : Fin 64) (s : Fin 2048) (d : Fin 512), x1 (ix3 p s d) = ((B p s d : ℝ) : EReal))
    (hmi : ∀ (p : Fin 64) (i : Fin 1536), x2 (ix2 p i) = BitVec.ofNat 32 (mi p i).val) (k : S_.Idx) :
    val_main_v19 (F := Ideal) x0 x1 x2 k
      = (((∑ p : Fin 64, (∑ i : Fin 1536, patchErr A B p (mi p i)) / 786432) / 64 : ℝ) : EReal) := by
  rw [val_main_v19_apply, val_main_v18_apply, val_main_cst_3_apply, val_main_cst_4_apply, Ideal.hostDivf_def, Ideal.ofBits_def, Ideal.ofBits_def,
    Cert.Consts.ofBits_zero, zero_add, Cert.Consts.ofBits_64, sum_ix1,
    Finset.sum_congr rfl (fun p _ => masked_sample x0 x1 x2 A B mi hA hB hmi p), coe_sum]
  exact div_real _ _ (by norm_num)

end Masked

/-! ## The unmasked mean -/

section Unmasked
variable (x0 x1 : (⟨S64x2048x512, .f32⟩ : BufTy).Contents (Elt Ideal)) (x3 : (⟨S64x512, .i32⟩ : BufTy).Contents (Elt Ideal))
  (A B : Fin 64 → Fin 2048 → Fin 512 → ℝ) (ui : Fin 64 → Fin 512 → Fin 2048)

/-- The squared difference at `(p, i, c)` is the real one, at the listed patch. -/
theorem unmasked_sq (hA : ∀ (p : Fin 64) (s : Fin 2048) (d : Fin 512), x0 (ix3 p s d) = ((A p s d : ℝ) : EReal))
    (hB : ∀ (p : Fin 64) (s : Fin 2048) (d : Fin 512), x1 (ix3 p s d) = ((B p s d : ℝ) : EReal))
    (hui : ∀ (p : Fin 64) (i : Fin 512), x3 (ix2 p i) = BitVec.ofNat 32 (ui p i).val)
    (p : Fin 64) (i : Fin 512) (c : Fin 512) :
    val_main_v14 (F := Ideal) x0 x1 x3 (ix3 p i c)
      = (((A p (ui p i) c - B p (ui p i) c) * (A p (ui p i) c - B p (ui p i) c) : ℝ) : EReal) := by
  rw [val_main_v14_apply, val_main_v13_apply, call2_read x3 ui x0 A hA hui, call3_read x3 ui x1 B hB hui,
    Ideal.subf_def, Ideal.mulf_def, ← EReal.coe_sub, ← EReal.coe_mul]

/-- One sample's mean: the sum over the listed patches and their features is the sum of the patches' errors. -/
theorem unmasked_sample (hA : ∀ (p : Fin 64) (s : Fin 2048) (d : Fin 512), x0 (ix3 p s d) = ((A p s d : ℝ) : EReal))
    (hB : ∀ (p : Fin 64) (s : Fin 2048) (d : Fin 512), x1 (ix3 p s d) = ((B p s d : ℝ) : EReal))
    (hui : ∀ (p : Fin 64) (i : Fin 512), x3 (ix2 p i) = BitVec.ofNat 32 (ui p i).val) (p : Fin 64) :
    val_main_v17 (F := Ideal) x0 x1 x3 (ix1 p)
      = (((∑ i : Fin 512, patchErr A B p (ui p i)) / 262144 : ℝ) : EReal) := by
  have h6 : val_main_v15 (F := Ideal) x0 x1 x3 (ix1 p) = ((∑ i : Fin 512, patchErr A B p (ui p i) : ℝ) : EReal) := by
    unfold val_main_v15
    refine (hostReduceAdd_rows _ (val_main_v14 (F := Ideal) x0 x1 x3) _ p).trans ?_
    rw [val_main_cst_1_apply, Ideal.ofBits_def, Cert.Consts.ofBits_zero, zero_add,
      Finset.sum_congr rfl (fun i _ => Finset.sum_congr rfl (fun c _ => unmasked_sq x0 x1 x3 A B ui hA hB hui p i c))]
    simp only [coe_sum]
    rfl
  rw [val_main_v17_apply, h6, val_main_v16_apply, val_main_cst_2_apply, Ideal.hostDivf_def, Ideal.ofBits_def, Cert.Consts.ofBits_262144]
  exact div_real _ _ (by norm_num)

/-- The batch mean of the samples' means. -/
theorem unmasked_mean (hA : ∀ (p : Fin 64) (s : Fin 2048) (d : Fin 512), x0 (ix3 p s d) = ((A p s d : ℝ) : EReal))
    (hB : ∀ (p : Fin 64) (s : Fin 2048) (d : Fin 512), x1 (ix3 p s d) = ((B p s d : ℝ) : EReal))
    (hui : ∀ (p : Fin 64) (i : Fin 512), x3 (ix2 p i) = BitVec.ofNat 32 (ui p i).val) (k : S_.Idx) :
    val_main_v21 (F := Ideal) x0 x1 x3 k
      = (((∑ p : Fin 64, (∑ i : Fin 512, patchErr A B p (ui p i)) / 262144) / 64 : ℝ) : EReal) := by
  rw [val_main_v21_apply, val_main_v20_apply, val_main_cst_5_apply, val_main_cst_6_apply, Ideal.hostDivf_def, Ideal.ofBits_def, Ideal.ofBits_def,
    Cert.Consts.ofBits_zero, zero_add, Cert.Consts.ofBits_64, sum_ix1,
    Finset.sum_congr rfl (fun p _ => unmasked_sample x0 x1 x3 A B ui hA hB hui p), coe_sum]
  exact div_real _ _ (by norm_num)

end Unmasked

/-! ## The result -/

/-- The reference's result is the gathered loss. -/
theorem value
    (x0 x1 : (⟨S64x2048x512, .f32⟩ : BufTy).Contents (Elt Ideal))
    (x2 : (⟨S64x1536, .i32⟩ : BufTy).Contents (Elt Ideal)) (x3 : (⟨S64x512, .i32⟩ : BufTy).Contents (Elt Ideal))
    (A B : Fin 64 → Fin 2048 → Fin 512 → ℝ) (mi : Fin 64 → Fin 1536 → Fin 2048) (ui : Fin 64 → Fin 512 → Fin 2048)
    (hA : ∀ (p : Fin 64) (s : Fin 2048) (d : Fin 512), x0 (ix3 p s d) = ((A p s d : ℝ) : EReal))
    (hB : ∀ (p : Fin 64) (s : Fin 2048) (d : Fin 512), x1 (ix3 p s d) = ((B p s d : ℝ) : EReal))
    (hm : ∀ (p : Fin 64) (i : Fin 1536), x2 (ix2 p i) = BitVec.ofNat 32 (mi p i).val)
    (hu : ∀ (p : Fin 64) (i : Fin 512), x3 (ix2 p i) = BitVec.ofNat 32 (ui p i).val) :
    val_main_v23 (F := Ideal) x0 x1 x2 x3 = fun _ => ((gatheredLoss Cert.Consts.alpha A B mi ui : ℝ) : EReal) := by
  funext k
  rw [val_main_v23_apply, val_main_v22_apply, masked_mean x0 x1 x2 A B mi hA hB hm,
    unmasked_mean x0 x1 x3 A B ui hA hB hu, val_main_cst_7_apply, Ideal.ofBits_def, Cert.Consts.ofBits_alpha,
    Ideal.mulf_def, Ideal.addf_def, ← EReal.coe_mul, ← EReal.coe_add]
  rfl

end Cert.ReferenceIdeal.RefValue

end
-- ==== Proof.lean ====
/-
  A masked-patch reconstruction loss computed two ways, equal as extended reals.

  Both programs take a prediction and a target (64 samples × 2048 patches × 512 features) and, per sample, a list of
  1536 masked and a list of 512 unmasked patch numbers. The reference gathers the listed patches, takes each sample's
  mean squared error over the gathered entries, averages over the batch, and adds the unmasked average scaled by the
  f32 value nearest 0.1. The kernel's program first counts on the host, by comparing every list entry with every
  patch number, how often each patch is named, turns the two counts into one weight per patch, streams prediction and
  target once through a pipeline that accumulates each sample's weighted squared error, and averages the 64 results.

  Under the precondition — every float entry finite, every list entry a patch number below 2048 — all values are
  real numbers, the kernel's result is the WEIGHTED arrangement of the loss and the reference's the GATHERED one
  (Proof/Spec.lean), and the two are one number because a sum over a list of patch names is the sum over all patches
  of (times named) × (the patch's term) (Proof/SpecLaw.lean). The frames are the generated ones; the kernel's
  idealization rewrote nothing.
-/
import proofs.«417517_j35751307772082_2_alg».proof.Defs
import proofs.«417517_j35751307772082_2_alg».proof.Proof.Gen.Kernel
import proofs.«417517_j35751307772082_2_alg».proof.Proof.Gen.Kernel.Frame
import proofs.«417517_j35751307772082_2_alg».proof.Proof.Gen.KernelIdeal
import proofs.«417517_j35751307772082_2_alg».proof.Proof.Gen.KernelIdeal.Frame
import proofs.«417517_j35751307772082_2_alg».proof.Proof.Gen.ReferenceIdeal
import proofs.«417517_j35751307772082_2_alg».proof.Proof.Gen.Pre_finite_inputs
import proofs.«417517_j35751307772082_2_alg».proof.Proof.PreFacts
import proofs.«417517_j35751307772082_2_alg».proof.Proof.SpecLaw
import proofs.«417517_j35751307772082_2_alg».proof.Proof.KernelWeights
import proofs.«417517_j35751307772082_2_alg».proof.Proof.KernelValue
import proofs.«417517_j35751307772082_2_alg».proof.Proof.KernelTail
import proofs.«417517_j35751307772082_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx Cert.MaskedMse

/-- The word-level kernel runs and keeps its arguments: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- THE KERNEL'S RESULT under the precondition is the reference's term of arrays that agree with the kernel's:
    the weighted arrangement on one side, the gathered on the other, one real number. -/
theorem kernel_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (c : Dev Cert.KernelIdeal.nD) :
    Pipeline.afterTail₀ Cert.KernelIdeal.cfgs (Cert.KernelIdeal.Gen.dats (F := Ideal) m) 0 (Cert.KernelIdeal.Gen.V0 m) [Cert.KernelIdeal.Gen.hostOps1] c Cert.KernelIdeal.main_v23
      = Cert.ReferenceIdeal.ValueP.res_main_v23 m' c := by
  obtain ⟨A, B, mi, ui, hA, hB, hm, hu⟩ := Cert.PreFacts.real_and_in_range _ _ _ _ (hpre c)
  have hW := Cert.KernelIdeal.HostValue.weights m c mi ui hm hu
  have hA' : ∀ (p : Fin 64) (s : Fin 2048) (d : Fin 512),
      (Cert.KernelIdeal.Gen.V (F := Ideal) m c Cert.KernelIdeal.main_arg0 : Cert.KernelIdeal.S64x2048x512.Idx → EReal) (ix3 p s d) = ((A p s d : ℝ) : EReal) := by
    intro p s d; rw [Cert.KernelIdeal.Gen.V_main_arg0]; exact hA p s d
  have hB' : ∀ (p : Fin 64) (s : Fin 2048) (d : Fin 512),
      (Cert.KernelIdeal.Gen.V (F := Ideal) m c Cert.KernelIdeal.main_arg1 : Cert.KernelIdeal.S64x2048x512.Idx → EReal) (ix3 p s d) = ((B p s d : ℝ) : EReal) := by
    intro p s d; rw [Cert.KernelIdeal.Gen.V_main_arg1]; exact hB p s d
  have rows := Cert.KernelIdeal.Value.out_rows m c A B (weight Cert.Consts.alpha mi ui) hA' hB' hW
  have kt := Cert.KernelIdeal.HostValue.tail m c (fun p => ∑ s : Fin 2048, patchErr A B p s * weight Cert.Consts.alpha mi ui p s) rows
  refine kt.trans ?_
  rw [Cert.ReferenceIdeal.ReadP.val_main_v23_eq, (hagree c).1, (hagree c).2.1, (hagree c).2.2.1, (hagree c).2.2.2,
    Cert.ReferenceIdeal.RefValue.value _ _ _ _ A B mi ui hA hB hm hu, ← weightedLoss_eq_gatheredLoss]
  rfl

/-- At the ideal values both programs, run from memories that agree on the arguments, end with the reference's term as
    their result and their arguments unchanged. -/
theorem algebraic : Cert.algebraic_KernelIdeal_ReferenceIdeal := by
  intro m ρ m' ρ' hpre hagree
  refine ⟨fun c => Cert.ReferenceIdeal.ValueP.res_main_v23 m' c, ?_,
    Cert.ReferenceIdeal.ValueP.run (F := Ideal) m' ρ'⟩
  refine (θ_run Cert.KernelIdeal.defs _ _).mono (fun _ h c => ⟨?_, ?_, ?_, ?_, ?_⟩) (Cert.KernelIdeal.Gen.run_main m ρ)
  · exact ((h c).2 Cert.KernelIdeal.main_v23 (Pipeline.mem_restRefs_of Cert.KernelIdeal.main_v23 (by decide) (by decide))).trans
      (kernel_result m m' hpre hagree c)
  · exact ((h c).1 0).trans (((Cert.KernelIdeal.Gen.dats m 0 c).arrAt_in 0 rfl _).trans
      ((Cert.KernelIdeal.Gen.A_eq m c 0).trans (Cert.KernelIdeal.Gen.V_main_arg0 m c)))
  · exact ((h c).1 1).trans (((Cert.KernelIdeal.Gen.dats m 0 c).arrAt_in 1 rfl _).trans
      ((Cert.KernelIdeal.Gen.A_eq m c 1).trans (Cert.KernelIdeal.Gen.V_main_arg1 m c)))
  · exact ((h c).2 Cert.KernelIdeal.main_arg2 (Pipeline.mem_restRefs_of Cert.KernelIdeal.main_arg2 (by decide) (by decide))).trans
      (Cert.KernelIdeal.Gen.W_main_arg2 m (Cert.KernelIdeal.Gen.dats m) c)
  · exact ((h c).2 Cert.KernelIdeal.main_arg3 (Pipeline.mem_restRefs_of Cert.KernelIdeal.main_arg3 (by decide) (by decide))).trans
      (Cert.KernelIdeal.Gen.W_main_arg3 m (Cert.KernelIdeal.Gen.dats m) c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
